-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x1024 : Shape := ⟨3, ![32, 16, 1024]⟩
abbrev S128x16x1024 : Shape := ⟨3, ![128, 16, 1024]⟩
abbrev S1024x2048 : Shape := ⟨2, ![1024, 2048]⟩
abbrev S1024 : Shape := ⟨1, ![1024]⟩
abbrev S1x1024 : Shape := ⟨2, ![1, 1024]⟩
abbrev S_ : Shape := ⟨0, ![]⟩

class Facts : Prop where
  bcast_S_S32x16x1024 : S_.BroadcastsInDim S32x16x1024 (![] : Fin 0 → Fin S32x16x1024.rank)
  reducesTo_S32x16x1024_S_d0_1_2 : S32x16x1024.ReducesTo [0, 1, 2] S_
  h_S_ : 0 < S_.numel
  bcast_S_S128x16x1024 : S_.BroadcastsInDim S128x16x1024 (![] : Fin 0 → Fin S128x16x1024.rank)
  reducesTo_S128x16x1024_S_d0_1_2 : S128x16x1024.ReducesTo [0, 1, 2] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  main_v23

def fn {F : FTy → Type} [FloatOps F] (main_arg0 : FVec F S32x16x1024 .f32) (main_arg1 : FVec F S128x16x1024 .f32) (main_arg2 : FVec F S1024x2048 .f32) (main_arg3 : FVec F S1024 .f32) (main_arg4 : FVec F S1x1024 .f32) : IVec S_ 1 :=
  let main_v0 : FVec F S32x16x1024 .f32 := Host.absf main_arg0
  let main_cst : FVec F S_ .f32 := constant S_ .f32 0x7F800000#32
  let main_v1 : FVec F S32x16x1024 .f32 := broadcastInDim S32x16x1024 ![] bcast_S_S32x16x1024 main_cst
  let main_v2 : IVec S32x16x1024 1 := cmpf .olt main_v0 main_v1
  let main_c : IVec S_ 1 := constantI S_ 1 1#1
  let main_v3 : IVec S_ 1 := (fun x v => Host.reduce IntOp.andi x v reducesTo_S32x16x1024_S_d0_1_2 h_S_) main_v2 main_c
  let main_v4 : FVec F S128x16x1024 .f32 := Host.absf main_arg1
  let main_cst_0 : FVec F S_ .f32 := constant S_ .f32 0x7F800000#32
  let main_v5 : FVec F S128x16x1024 .f32 := broadcastInDim S128x16x1024 ![] bcast_S_S128x16x1024 main_cst_0
  let main_v6 : IVec S128x16x1024 1 := cmpf .olt main_v4 main_v5
  let main_c_1 : IVec S_ 1 := constantI S_ 1 1#1
  let main_v7 : IVec S_ 1 := (fun x v => Host.reduce IntOp.andi x v reducesTo_S128x16x1024_S_d0_1_2 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S32x16x1024 : Shape := ⟨3, ![32, 16, 1024]⟩
abbrev S128x16x1024 : Shape := ⟨3, ![128, 16, 1024]⟩
abbrev S1024x2048 : Shape := ⟨2, ![1024, 2048]⟩
abbrev S1024 : Shape := ⟨1, ![1024]⟩
abbrev S1x1024 : Shape := ⟨2, ![1, 1024]⟩
abbrev S16x128x1024 : Shape := ⟨3, ![16, 128, 1024]⟩
abbrev S2048x1024 : Shape := ⟨2, ![2048, 1024]⟩
abbrev S32x16x128 : Shape := ⟨3, ![32, 16, 128]⟩
abbrev S8x16x1024 : Shape := ⟨3, ![8, 16, 1024]⟩
abbrev S2048x128 : Shape := ⟨2, ![2048, 128]⟩
abbrev S1x128 : Shape := ⟨2, ![1, 128]⟩
abbrev S8x16x128 : Shape := ⟨3, ![8, 16, 128]⟩
abbrev S1024x128 : Shape := ⟨2, ![1024, 128]⟩
abbrev S128x1024 : Shape := ⟨2, ![128, 1024]⟩
abbrev S128x128 : Shape := ⟨2, ![128, 128]⟩
abbrev S16x128x128 : Shape := ⟨3, ![16, 128, 128]⟩
abbrev S1x1x1x128 : Shape := ⟨4, ![1, 1, 1, 128]⟩
abbrev S8x16x1x128 : Shape := ⟨4, ![8, 16, 1, 128]⟩
abbrev S1x16x128x128 : Shape := ⟨4, ![1, 16, 128, 128]⟩
abbrev S8x16x128x128 : Shape := ⟨4, ![8, 16, 128, 128]⟩
abbrev S_ : Shape := ⟨0, ![]⟩
abbrev S32x16 : Shape := ⟨2, ![32, 16]⟩
abbrev S32x16x1 : Shape := ⟨3, ![32, 16, 1]⟩
abbrev S32x128x16 : Shape := ⟨3, ![32, 128, 16]⟩
abbrev S32x128x16x1 : Shape := ⟨4, ![32, 128, 16, 1]⟩

abbrev nBuf : Space → Nat
  | .hbm => 28
  | .vmem => 11
  | .smem => 0
  | _ => 0

abbrev bufTy : (tb : Table) → Fin (tcTables nBuf tb) → BufTy
  | .hbm, ⟨0, _⟩ => ⟨S32x16x1024, .f32⟩
  | .hbm, ⟨1, _⟩ => ⟨S128x16x1024, .f32⟩
  | .hbm, ⟨2, _⟩ => ⟨S1024x2048, .f32⟩
  | .hbm, ⟨3, _⟩ => ⟨S1024, .f32⟩
  | .hbm, ⟨4, _⟩ => ⟨S1x1024, .f32⟩
  | .hbm, ⟨5, _⟩ => ⟨S32x16x1024, .bf16⟩
  | .hbm, ⟨6, _⟩ => ⟨S16x128x1024, .f32⟩
  | .hbm, ⟨7, _⟩ => ⟨S16x128x1024, .bf16⟩
  | .hbm, ⟨8, _⟩ => ⟨S2048x1024, .f32⟩
  | .hbm, ⟨9, _⟩ => ⟨S2048x1024, .bf16⟩
  | .hbm, ⟨10, _⟩ => ⟨S1x1024, .f32⟩
  | .hbm, ⟨11, _⟩ => ⟨S32x16x128, .f32⟩
  | .hbm, ⟨12, _⟩ => ⟨S_, .f32⟩
  | .hbm, ⟨13, _⟩ => ⟨S32x16, .f32⟩
  | .hbm, ⟨14, _⟩ => ⟨S_, .f32⟩
  | .hbm, ⟨15, _⟩ => ⟨S32x16, .f32⟩
  | .hbm, ⟨16, _⟩ => ⟨S32x16, .f32⟩
  | .hbm, ⟨17, _⟩ => ⟨S32x16x1, .f32⟩
  | .hbm, ⟨18, _⟩ => ⟨S32x16x128, .f32⟩
  | .hbm, ⟨19, _⟩ => ⟨S32x16x128, .f32⟩
  | .hbm, ⟨20, _⟩ => ⟨S32x16x128, .f32⟩
  | .hbm, ⟨21, _⟩ => ⟨S_, .f32⟩
  | .hbm, ⟨22, _⟩ => ⟨S32x16, .f32⟩
  | .hbm, ⟨23, _⟩ => ⟨S32x16x1, .f32⟩
  | .hbm, ⟨24, _⟩ => ⟨S32x16x128, .f32⟩
  | .hbm, ⟨25, _⟩ => ⟨S32x16x128, .f32⟩
  | .hbm, ⟨26, _⟩ => ⟨S32x128x16, .f32⟩
  | .hbm, ⟨27, _⟩ => ⟨S32x128x16x1, .f32⟩
  | .local _ .vmem, ⟨0, _⟩ => ⟨S8x16x1024, .bf16⟩
  | .local _ .vmem, ⟨1, _⟩ => ⟨S8x16x1024, .bf16⟩
  | .local _ .vmem, ⟨2, _⟩ => ⟨S16x128x1024, .bf16⟩
  | .local _ .vmem, ⟨3, _⟩ => ⟨S2048x128, .bf16⟩
  | .local _ .vmem, ⟨4, _⟩ => ⟨S2048x128, .bf16⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S8x16x128, .f32⟩
  | .local _ .vmem, ⟨10, _⟩ => ⟨S8x16x128, .f32⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  transposes_S128x16x1024_S16x128x1024_1_0_2 : S128x16x1024.Transposes [1, 0, 2] S16x128x1024
  transposes_S1024x2048_S2048x1024_1_0 : S1024x2048.Transposes [1, 0] S2048x1024
  shapeCasts_S1024_S1x1024 : S1024.ShapeCasts S1x1024
  inb_S8x16x1024_S8x16x1024_0_0_0 : ∀ a, (![0, 0, 0] : Fin 3 → Nat) a + S8x16x1024.size a ≤ S8x16x1024.size a
  h_S8x16x1024 : 0 < S8x16x1024.numel
  shapeCasts_S8x16x1024_S8x16x1024 : S8x16x1024.ShapeCasts S8x16x1024
  inb_S16x128x1024_S16x128x1024_0_0_0 : ∀ a, (![0, 0, 0] : Fin 3 → Nat) a + S16x128x1024.size a ≤ S16x128x1024.size a
  h_S16x128x1024 : 0 < S16x128x1024.numel
  shapeCasts_S16x128x1024_S16x128x1024 : S16x128x1024.ShapeCasts S16x128x1024
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  slices_S2048x128_o0_0_S1024x128 : S2048x128.Slices ![0, 0] S1024x128
  slices_S2048x128_o1024_0_S1024x128 : S2048x128.Slices ![1024, 0] S1024x128
  shapeCasts_S8x16x1024_S128x1024 : S8x16x1024.ShapeCasts S128x1024
  shapeCasts_S128x128_S8x16x128 : S128x128.ShapeCasts S8x16x128
  shapeCasts_S16x128x1024_S2048x1024 : S16x128x1024.ShapeCasts S2048x1024
  shapeCasts_S2048x128_S16x128x128 : S2048x128.ShapeCasts S16x128x128
  shapeCasts_S1x128_S1x1x1x128 : S1x128.ShapeCasts S1x1x1x128
  shapeCasts_S8x16x128_S8x16x1x128 : S8x16x128.ShapeCasts S8x16x1x128
  shapeCasts_S16x128x128_S1x16x128x128 : S16x128x128.ShapeCasts S1x16x128x128
  broadcasts_S8x16x1x128_S8x16x128x128 : S8x16x1x128.Broadcasts S8x16x128x128
  broadcasts_S1x16x128x128_S8x16x128x128 : S1x16x128x128.Broadcasts S8x16x128x128
  broadcasts_S1x1x1x128_S8x16x128x128 : S1x1x1x128.Broadcasts S8x16x128x128
  reduces_S8x16x128x128_S8x16x128 : S8x16x128x128.Reduces [3] S8x16x128
  inb_S8x16x128_S8x16x128_0_0_0 : ∀ a, (![0, 0, 0] : Fin 3 → Nat) a + S8x16x128.size a ≤ S8x16x128.size a
  h_S8x16x128 : 0 < S8x16x128.numel
  shapeCasts_S8x16x128_S8x16x128 : S8x16x128.ShapeCasts S8x16x128
  reducesTo_S32x16x128_S32x16_d2 : S32x16x128.ReducesTo [2] S32x16
  h_S_ : 0 < S_.numel
  bcast_S_S32x16 : S_.BroadcastsInDim S32x16 (![] : Fin 0 → Fin S32x16.rank)
  bcast_S32x16_S32x16x1_0_1 : S32x16.BroadcastsInDim S32x16x1 (![0, 1] : Fin 2 → Fin S32x16x1.rank)
  bcast_S32x16x1_S32x16x128_0_1_2 : S32x16x1.BroadcastsInDim S32x16x128 (![0, 1, 2] : Fin 3 → Fin S32x16x128.rank)
  transposes_S32x16x128_S32x128x16_0_2_1 : S32x16x128.Transposes [0, 2, 1] S32x128x16
  bcast_S32x128x16_S32x128x16x1_0_1_2 : S32x128x16.BroadcastsInDim S32x128x16x1 (![0, 1, 2] : Fin 3 → Fin S32x128x16x1.rank)
  dot_S128x1024_S1024x128_S128x128_1_0_0_1_n_n_wf : DotDims.WF S128x1024 S1024x128 S128x128 [1] [0] [0] [1] [] []
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16x1024.size a ≤ S32x16x1024.size a
  hwx0_0 : ∀ i : grid0.Coords, EltTy.bits .bf16 = 32 ∨ (Rect.block (s := S32x16x1024) S8x16x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128x1024.size a ≤ S16x128x1024.size a
  hwx0_1 : ∀ i : grid0.Coords, EltTy.bits .bf16 = 32 ∨ (Rect.block (s := S16x128x1024) S16x128x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S2048x1024.size a
  hwx0_2 : ∀ i : grid0.Coords, EltTy.bits .bf16 = 32 ∨ (Rect.block (s := S2048x1024) S2048x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x1024.size a
  hwx0_3 : ∀ i : grid0.Coords, EltTy.bits .f32 = 32 ∨ (Rect.block (s := S1x1024) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x1024.size a
  hwx0_4 : ∀ i : grid0.Coords, EltTy.bits .f32 = 32 ∨ (Rect.block (s := S1x1024) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x16x128.size a ≤ S32x16x128.size a
  hwx0_5 : ∀ i : grid0.Coords, EltTy.bits .f32 = 32 ∨ (Rect.block (s := S32x16x128) S8x16x128.size (cc0_transform_5 i) (hinb0_5 i)).WholeWords (EltTy.packing .f32)

variable [Facts₀]

def dot_S128x1024_S1024x128_S128x128_1_0_0_1_n_n : DotDims S128x1024 S1024x128 S128x128 where
  lhsContracting := [1]
  rhsContracting := [0]
  lhsNonContracting := [0]
  rhsNonContracting := [1]
  lhsBatch := []
  rhsBatch := []
  wf := dot_S128x1024_S1024x128_S128x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_v0) S8x16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16x128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S8x16x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x16x1024 : Shape := ⟨3, ![32, 16, 1024]⟩
abbrev S128x16x1024 : Shape := ⟨3, ![128, 16, 1024]⟩
abbrev S1024x2048 : Shape := ⟨2, ![1024, 2048]⟩
abbrev S1024 : Shape := ⟨1, ![1024]⟩
abbrev S1x1024 : Shape := ⟨2, ![1, 1024]⟩
abbrev S1024x1024 : Shape := ⟨2, ![1024, 1024]⟩
abbrev S32x1x16x1024 : Shape := ⟨4, ![32, 1, 16, 1024]⟩
abbrev S1x128x16x1024 : Shape := ⟨4, ![1, 128, 16, 1024]⟩
abbrev S32x128x16x1024 : Shape := ⟨4, ![32, 128, 16, 1024]⟩
abbrev S1x1x1x1024 : Shape := ⟨4, ![1, 1, 1, 1024]⟩
abbrev S32x128x16x1 : Shape := ⟨4, ![32, 128, 16, 1]⟩
abbrev S_ : Shape := ⟨0, ![]⟩
abbrev S32x16x1 : Shape := ⟨3, ![32, 16, 1]⟩
abbrev S32x1x16x1 : Shape := ⟨4, ![32, 1, 16, 1]⟩

abbrev nBuf : Space → Nat
  | .hbm => 33
  | .vmem => 0
  | .smem => 0
  | _ => 0

abbrev bufTy : (tb : Table) → Fin (tcTables nBuf tb) → BufTy
  | .hbm, ⟨0, _⟩ => ⟨S32x16x1024, .f32⟩
  | .hbm, ⟨1, _⟩ => ⟨S128x16x1024, .f32⟩
  | .hbm, ⟨2, _⟩ => ⟨S1024x2048, .f32⟩
  | .hbm, ⟨3, _⟩ => ⟨S1024, .f32⟩
  | .hbm, ⟨4, _⟩ => ⟨S1x1024, .f32⟩
  | .hbm, ⟨5, _⟩ => ⟨S1024x1024, .f32⟩
  | .hbm, ⟨6, _⟩ => ⟨S1024x1024, .f32⟩
  | .hbm, ⟨7, _⟩ => ⟨S32x16x1024, .f32⟩
  | .hbm, ⟨8, _⟩ => ⟨S128x16x1024, .f32⟩
  | .hbm, ⟨9, _⟩ => ⟨S32x1x16x1024, .f32⟩
  | .hbm, ⟨10, _⟩ => ⟨S1x128x16x1024, .f32⟩
  | .hbm, ⟨11, _⟩ => ⟨S32x128x16x1024, .f32⟩
  | .hbm, ⟨12, _⟩ => ⟨S32x128x16x1024, .f32⟩
  | .hbm, ⟨13, _⟩ => ⟨S32x128x16x1024, .f32⟩
  | .hbm, ⟨14, _⟩ => ⟨S1x1x1x1024, .f32⟩
  | .hbm, ⟨15, _⟩ => ⟨S32x128x16x1024, .f32⟩
  | .hbm, ⟨16, _⟩ => ⟨S32x128x16x1024, .f32⟩
  | .hbm, ⟨17, _⟩ => ⟨S32x128x16x1024, .f32⟩
  | .hbm, ⟨18, _⟩ => ⟨S32x128x16x1, .f32⟩
  | .hbm, ⟨19, _⟩ => ⟨S_, .f32⟩
  | .hbm, ⟨20, _⟩ => ⟨S32x16x1, .f32⟩
  | .hbm, ⟨21, _⟩ => ⟨S_, .f32⟩
  | .hbm, ⟨22, _⟩ => ⟨S32x16x1, .f32⟩
  | .hbm, ⟨23, _⟩ => ⟨S32x16x1, .f32⟩
  | .hbm, ⟨24, _⟩ => ⟨S32x1x16x1, .f32⟩
  | .hbm, ⟨25, _⟩ => ⟨S32x128x16x1, .f32⟩
  | .hbm, ⟨26, _⟩ => ⟨S32x128x16x1, .f32⟩
  | .hbm, ⟨27, _⟩ => ⟨S32x128x16x1, .f32⟩
  | .hbm, ⟨28, _⟩ => ⟨S_, .f32⟩
  | .hbm, ⟨29, _⟩ => ⟨S32x16x1, .f32⟩
  | .hbm, ⟨30, _⟩ => ⟨S32x1x16x1, .f32⟩
  | .hbm, ⟨31, _⟩ => ⟨S32x128x16x1, .f32⟩
  | .hbm, ⟨32, _⟩ => ⟨S32x128x16x1, .f32⟩
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  slices_S1024x2048_S1024x1024_0_0 : S1024x2048.Slices ![0, 0] S1024x1024
  slices_S1024x2048_S1024x1024_0_1024 : S1024x2048.Slices ![0, 1024] S1024x1024
  bcast_S32x16x1024_S32x1x16x1024_0_2_3 : S32x16x1024.BroadcastsInDim S32x1x16x1024 (![0, 2, 3] : Fin 3 → Fin S32x1x16x1024.rank)
  bcast_S128x16x1024_S1x128x16x1024_1_2_3 : S128x16x1024.BroadcastsInDim S1x128x16x1024 (![1, 2, 3] : Fin 3 → Fin S1x128x16x1024.rank)
  bcast_S32x1x16x1024_S32x128x16x1024_0_1_2_3 : S32x1x16x1024.BroadcastsInDim S32x128x16x1024 (![0, 1, 2, 3] : Fin 4 → Fin S32x128x16x1024.rank)
  bcast_S1x128x16x1024_S32x128x16x1024_0_1_2_3 : S1x128x16x1024.BroadcastsInDim S32x128x16x1024 (![0, 1, 2, 3] : Fin 4 → Fin S32x128x16x1024.rank)
  bcast_S1024_S1x1x1x1024_3 : S1024.BroadcastsInDim S1x1x1x1024 (![3] : Fin 1 → Fin S1x1x1x1024.rank)
  bcast_S1x1x1x1024_S32x128x16x1024_0_1_2_3 : S1x1x1x1024.BroadcastsInDim S32x128x16x1024 (![0, 1, 2, 3] : Fin 4 → Fin S32x128x16x1024.rank)
  reducesTo_S32x128x16x1_S32x16x1_d1 : S32x128x16x1.ReducesTo [1] S32x16x1
  h_S_ : 0 < S_.numel
  bcast_S_S32x16x1 : S_.BroadcastsInDim S32x16x1 (![] : Fin 0 → Fin S32x16x1.rank)
  bcast_S32x16x1_S32x1x16x1_0_2_3 : S32x16x1.BroadcastsInDim S32x1x16x1 (![0, 2, 3] : Fin 3 → Fin S32x1x16x1.rank)
  bcast_S32x1x16x1_S32x128x16x1_0_1_2_3 : S32x1x16x1.BroadcastsInDim S32x128x16x1 (![0, 1, 2, 3] : Fin 4 → Fin S32x128x16x1.rank)
  dot_S32x16x1024_S1024x1024_S32x16x1024_2_1_01_0_n_n_wf : DotDims.WF S32x16x1024 S1024x1024 S32x16x1024 [2] [1] [0, 1] [0] [] []
  dot_S128x16x1024_S1024x1024_S128x16x1024_2_1_01_0_n_n_wf : DotDims.WF S128x16x1024 S1024x1024 S128x16x1024 [2] [1] [0, 1] [0] [] []
  dot_S32x128x16x1024_S1x1024_S32x128x16x1_3_1_012_0_n_n_wf : DotDims.WF S32x128x16x1024 S1x1024 S32x128x16x1 [3] [1] [0, 1, 2] [0] [] []

variable [Facts₀]

def dot_S32x16x1024_S1024x1024_S32x16x1024_2_1_01_0_n_n : DotDims S32x16x1024 S1024x1024 S32x16x1024 where
  lhsContracting := [2]
  rhsContracting := [1]
  lhsNonContracting := [0, 1]
  rhsNonContracting := [0]
  lhsBatch := []
  rhsBatch := []
  wf := dot_S32x16x1024_S1024x1024_S32x16x1024_2_1_01_0_n_n_wf
def dot_S128x16x1024_S1024x1024_S128x16x1024_2_1_01_0_n_n : DotDims S128x16x1024 S1024x1024 S128x16x1024 where
  lhsContracting := [2]
  rhsContracting := [1]
  lhsNonContracting := [0, 1]
  rhsNonContracting := [0]
  lhsBatch := []
  rhsBatch := []
  wf := dot_S128x16x1024_S1024x1024_S128x16x1024_2_1_01_0_n_n_wf
def dot_S32x128x16x1024_S1x1024_S32x128x16x1_3_1_012_0_n_n : DotDims S32x128x16x1024 S1x1024 S32x128x16x1 where
  lhsContracting := [3]
  rhsContracting := [1]
  lhsNonContracting := [0, 1, 2]
  rhsNonContracting := [0]
  lhsBatch := []
  rhsBatch := []
  wf := dot_S32x128x16x1024_S1x1024_S32x128x16x1_3_1_012_0_n_n_wf

class Facts : Prop extends Facts₀ where

variable [Facts]
-- ==== Proof.KernelPieces.lean ====
/-
  What one grid point leaves in the output block, as a value.

  The kernel body adds the point's tile of the score to the output block; at the first tile of a row of the grid
  it first clears the block.  So a point that is not first leaves  acc + tile  over what the point before left, and a
  first point leaves  0 + tile.
-/
import proofs.«170050_j79894981640368_1_alg».proof.Proof.Gen.KernelIdeal.Frame
import Idealize.ShloMosaic.Lib.Pipeline.Value
import Idealize.ShloMosaic.Lib.Tactic

noncomputable section

namespace Cert.KernelPieces

open Cert.KernelIdeal Cert.KernelIdeal.Gen Idealize.ShloMosaic Idealize.ShloMosaic.TcCoe Idealize.SL.Sem
open Idealize.ShloMosaic.Pipeline (Dat)

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A point that is not the first of its row: the block ends at the body's sum over what it held. -/
theorem out_B (c : Dev nD) (i : grid0.Coords) (arg2 : Memref sig .tc .vmem S8x16x1024 .bf16) (harg2 : arg2.IsWhole) (arg3 : Memref sig .tc .vmem S16x128x1024 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S8x16x128 .f32) (harg7 : arg7.IsWhole) (hc0 : ¬cond0_0 i)
    (x0 : Vec F S8x16x1024 .bf16) (x1 : Vec F S16x128x1024 .bf16) (x2 : Vec F S2048x128 .bf16) (x3 : Vec F S1x128 .f32) (x4 : Vec F S1x128 .f32) (xo5 : Vec F S8x16x128 .f32) :
    out0_B_5 c i arg2 harg2 arg3 harg3 arg4 harg4 arg5 harg5 arg6 harg6 arg7 harg7 hc0 x0 x1 x2 x3 x4 xo5 = k0_pay2 x0 x1 x2 x3 x4 xo5 := by
  unfold out0_B_5
  rw [View.read_writes_eq_canon _ _ _ (cover0_B_5 c i arg2 harg2 arg3 harg3 arg4 harg4 arg5 harg5 arg6 harg6 arg7 harg7 hc0 x0 x1 x2 x3 x4 xo5)]
  unfold kernelRun0_B
  dsimp only
  sl_unfold_words
  rw [View.canon_unit_zero hz3]
  simp only [View.readAt_eq_ld, harg2.read_unread, harg3.read_unread, harg4.read_unread, harg5.read_unread, harg6.read_unread, harg7.read_unread,
    View.ld_unit_zero (S := S8x16x1024) hz3, View.ld_unit_zero (S := S16x128x1024) hz3, View.ld_unit_zero (S := S2048x128) hz2,
    View.ld_unit_zero (S := S1x128) hz2, View.ld_unit_zero (S := S8x16x128) hz3]

/-- The first point of a row: the block is cleared, read back, and ends at the body's sum over the zero block. -/
theorem out_A (c : Dev nD) (i : grid0.Coords) (arg2 : Memref sig .tc .vmem S8x16x1024 .bf16) (harg2 : arg2.IsWhole) (arg3 : Memref sig .tc .vmem S16x128x1024 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S8x16x128 .f32) (harg7 : arg7.IsWhole) (hc0 : cond0_0 i)
    (x0 : Vec F S8x16x1024 .bf16) (x1 : Vec F S16x128x1024 .bf16) (x2 : Vec F S2048x128 .bf16) (x3 : Vec F S1x128 .f32) (x4 : Vec F S1x128 .f32) :
    out0_A_5 c i arg2 harg2 arg3 harg3 arg4 harg4 arg5 harg5 arg6 harg6 arg7 harg7 hc0 x0 x1 x2 x3 x4 = k0_pay2 x0 x1 x2 x3 x4 (k0_pay1 (F := F)) := by
  unfold out0_A_5
  rw [View.read_writes_eq_canon _ _ _ (cover0_A_5 c i arg2 harg2 arg3 harg3 arg4 harg4 arg5 harg5 arg6 harg6 arg7 harg7 hc0 x0 x1 x2 x3 x4)]
  unfold kernelRun0_A
  dsimp only
  sl_unfold_words
  rw [View.canon_cons_unit_zero (S := S8x16x128) hz3, View.readCov_unit_zero (S := S8x16x128) _ hz3]
  simp only [View.readAt_eq_ld, harg2.read_unread, harg3.read_unread, harg4.read_unread, harg5.read_unread, harg6.read_unread,
    View.ld_unit_zero (S := S8x16x1024) hz3, View.ld_unit_zero (S := S16x128x1024) hz3, View.ld_unit_zero (S := S2048x128) hz2,
    View.ld_unit_zero (S := S1x128) hz2]

end Cert.KernelPieces

end
-- ==== Proof.LibBlockSum.lean ====
/-
  Block decompositions of one finite sum over the extended reals.

  A contraction with terms `f 0, f 1, …` is cut into consecutive blocks of width `B`; block `j` is the sum of the terms
  `j·B, …, j·B + B − 1`.  Adding blocks `j₀, …, j₀ + k` left to right — whether the first is STORED and the later ones
  added to it (`accum`: an accumulator kept in an output block that the first grid point overwrites), or all are added
  onto a ZERO start (`accum0`: a scratch accumulator cleared at the first grid point) — gives the contiguous stretch of
  `(k + 1)·B` terms that starts at `j₀·B` (`accum_eq`, `accum0_eq`).  Only commutativity and associativity of addition
  are used (the extended reals are an additive commutative monoid), so no term needs to be finite.
  The terms are indexed by ℕ and summed over `Finset.range`, so that a block is an offset and a zero-padded tail is
  "the terms beyond the extent are zero".  Mathlib imports only.
-/
import Mathlib.Data.EReal.Operations
import Mathlib.Algebra.BigOperators.Intervals

noncomputable section

namespace Cert.Spec

open Finset

variable (f : ℕ → EReal)

/-- Block `j` of width `B` of the contraction: the terms `j·B, …, j·B + B − 1`. -/
def block (B j : ℕ) : EReal := ∑ κ ∈ range B, f (j * B + κ)

/-- Blocks `j₀, j₀+1, …, j₀+k` added up left to right, the first one STORED (not added to anything). -/
def accum (B j₀ : ℕ) : ℕ → EReal
  | 0 => block f B j₀
  | k + 1 => accum B j₀ k + block f B (j₀ + (k + 1))

/-- Blocks `0, …, k` added up left to right onto a zero start. -/
def accum0 (B : ℕ) : ℕ → EReal
  | 0 => 0 + block f B 0
  | k + 1 => accum0 B k + block f B (k + 1)

/-- Consecutive blocks, the first stored, are one contiguous stretch of the contraction. -/
theorem accum_eq (B j₀ k : ℕ) : accum f B j₀ k = ∑ i ∈ range ((k + 1) * B), f (j₀ * B + i) := by
  induction k with
  | zero => simp only [accum, block, Nat.zero_add, Nat.one_mul]
  | succ k ih =>
    show accum f B j₀ k + block f B (j₀ + (k + 1)) = _
    rw [ih, block, show (k + 1 + 1) * B = (k + 1) * B + B by ring, Finset.sum_range_add]
    refine congrArg _ (Finset.sum_congr rfl fun κ _ => congrArg f ?_)
    ring

/-- Consecutive blocks added onto zero are the contraction's first `(k + 1)·B` terms. -/
theorem accum0_eq (B k : ℕ) : accum0 f B k = ∑ i ∈ range ((k + 1) * B), f i := by
  induction k with
  | zero => simp only [accum0, block, zero_add, Nat.zero_mul, Nat.zero_add, Nat.one_mul]
  | succ k ih =>
    show accum0 f B k + block f B (k + 1) = _
    rw [ih, block, show (k + 1 + 1) * B = (k + 1) * B + B by ring, Finset.sum_range_add]

end Cert.Spec

end
-- ==== Proof.Spec.lean ====
/-
  The mathematics of the additive ("concat") attention score and its softmax, stated once over the argument arrays.

  For a target position t, a batch entry b and a source position s the SCORE is
      score t b s = ∑ₒ tanh( (∑ₖ h[t,b,k]·W[o,k]) + (∑ₖ src[s,b,k]·W[o,1024+k]) + bias[o] ) · v[0,o],
  o ranging over the 1024 hidden units, k over the 1024 features; the left half of a row of W acts on the target
  vector and the right half on the source vector.  The result at (t, s, b, 0) is the softmax of s' ↦ score t b s' at s:
  the exponential of the score shifted by the row's maximum (taken from −∞, then once more against −∞), divided by the
  sum of those exponentials taken from 0.

  Cutting the hidden units into 8 consecutive tiles of 128 and adding the tiles' partial sums left to right onto a zero
  start is the same score (`tiles_eq_score`): addition of extended reals is commutative and associative, and nothing
  else is used, so no entry needs to be finite.
-/
import Idealize.ShloMosaic.PureOps.Ideal
import Idealize.ShloMosaic.PureOps.Ideal.Laws
import Idealize.ShloMosaic.Lib.ValueIdx
import proofs.«170050_j79894981640368_1_alg».proof.Proof.LibBlockSum

noncomputable section

open scoped BigOperators

namespace Cert.Attn

open Idealize.ShloMosaic Idealize.ShloMosaic.ValueIdx

/-- The argument arrays' shapes and the result's. -/
abbrev ShH : Shape := ⟨3, ![32, 16, 1024]⟩
abbrev ShS : Shape := ⟨3, ![128, 16, 1024]⟩
abbrev ShW : Shape := ⟨2, ![1024, 2048]⟩
abbrev ShB : Shape := ⟨1, ![1024]⟩
abbrev ShV : Shape := ⟨2, ![1, 1024]⟩
abbrev ShOut : Shape := ⟨4, ![32, 128, 16, 1]⟩

/-- Column k of the left half of W, and column k of its right half. -/
abbrev colL (k : Fin 1024) : Fin 2048 := ⟨k.val, by have := k.isLt; omega⟩
abbrev colR (k : Fin 1024) : Fin 2048 := ⟨1024 + k.val, by have := k.isLt; omega⟩

section
variable (h : ShH.Idx → EReal) (src : ShS.Idx → EReal) (W : ShW.Idx → EReal) (b : ShB.Idx → EReal) (v : ShV.Idx → EReal)

/-- The target vector's projection on hidden unit o. -/
def projT (t : Fin 32) (bb : Fin 16) (o : Fin 1024) : EReal := ∑ k : Fin 1024, h (ix3 t bb k) * W (ix2 o (colL k))
/-- The source vector's projection on hidden unit o. -/
def projS (s : Fin 128) (bb : Fin 16) (o : Fin 1024) : EReal := ∑ k : Fin 1024, src (ix3 s bb k) * W (ix2 o (colR k))
/-- Hidden unit o's contribution to the score. -/
def term (t : Fin 32) (bb : Fin 16) (s : Fin 128) (o : Fin 1024) : EReal :=
  Ideal.tanh (projT h W t bb o + projS src W s bb o + b (ix1 o)) * v (ix2 0 o)
/-- The score. -/
def score (t : Fin 32) (bb : Fin 16) (s : Fin 128) : EReal := ∑ o : Fin 1024, term h src W b v t bb s o

/-- Hidden unit n's contribution with n a natural number: zero past the last unit. -/
def termN (t : Fin 32) (bb : Fin 16) (s : Fin 128) (n : ℕ) : EReal :=
  if hn : n < 1024 then term h src W b v t bb s ⟨n, hn⟩ else 0

/-- Unit p of tile j of the hidden units. -/
abbrev tileUnit (j : Fin 8) (p : Fin 128) : Fin 1024 := ⟨j.val * 128 + p.val, by have := j.isLt; have := p.isLt; omega⟩

/-- Tile j's partial score: the sum of its 128 units' contributions. -/
def tileSum (t : Fin 32) (bb : Fin 16) (s : Fin 128) (j : Fin 8) : EReal :=
  ∑ p : Fin 128, term h src W b v t bb s (tileUnit j p)

theorem tileSum_eq_block (t : Fin 32) (bb : Fin 16) (s : Fin 128) (j : Fin 8) :
    tileSum h src W b v t bb s j = Cert.Spec.block (termN h src W b v t bb s) 128 j.val := by
  unfold tileSum Cert.Spec.block
  rw [← Fin.sum_univ_eq_sum_range (fun κ => termN h src W b v t bb s (j.val * 128 + κ)) 128]
  refine Finset.sum_congr rfl fun p _ => ?_
  have hp : j.val * 128 + p.val < 1024 := by have := j.isLt; have := p.isLt; omega
  unfold termN
  rw [dif_pos hp]

/-- The tiles' partial scores added left to right onto zero: after tile j, the first (j+1)·128 contributions. -/
theorem accum0_eq_range (t : Fin 32) (bb : Fin 16) (s : Fin 128) (j : ℕ) :
    Cert.Spec.accum0 (termN h src W b v t bb s) 128 j = ∑ n ∈ Finset.range ((j + 1) * 128), termN h src W b v t bb s n :=
  Cert.Spec.accum0_eq _ 128 j

/-- All eight tiles added left to right onto zero are the score. -/
theorem tiles_eq_score (t : Fin 32) (bb : Fin 16) (s : Fin 128) :
    Cert.Spec.accum0 (termN h src W b v t bb s) 128 7 = score h src W b v t bb s := by
  rw [accum0_eq_range]
  show ∑ n ∈ Finset.range 1024, termN h src W b v t bb s n = _
  rw [← Fin.sum_univ_eq_sum_range (fun n => termN h src W b v t bb s n) 1024]
  unfold score
  refine Finset.sum_congr rfl fun o _ => ?_
  unfold termN
  rw [dif_pos o.isLt]
end

/-! ## One grid point's tile, over the blocks it loads -/

/-- The blocks one grid point loads: 8 target positions, all 16 × 128 (batch, source) pairs, a 128-unit tile of W
    transposed (row r < 1024: feature r of the left half; row 1024 + r: feature r of the right half), and the same tile
    of the bias and of v. -/
abbrev ShHB : Shape := ⟨3, ![8, 16, 1024]⟩
abbrev ShSB : Shape := ⟨3, ![16, 128, 1024]⟩
abbrev ShWB : Shape := ⟨2, ![2048, 128]⟩
abbrev ShRow : Shape := ⟨2, ![1, 128]⟩
abbrev ShAcc : Shape := ⟨3, ![8, 16, 128]⟩

/-- The tile's partial score at (a, b, s) of the point's output block, as a function of the loaded blocks. -/
def tileOfBlocks (xh : ShHB.Idx → EReal) (xs : ShSB.Idx → EReal) (xw : ShWB.Idx → EReal) (xb xv : ShRow.Idx → EReal)
    (a : Fin 8) (bb : Fin 16) (s : Fin 128) : EReal :=
  ∑ p : Fin 128, Ideal.tanh ((∑ k : Fin 1024, xh (ix3 a bb k) * xw (ix2 (colL k) p))
      + (∑ k : Fin 1024, xs (ix3 bb s k) * xw (ix2 (colR k) p)) + xb (ix2 0 p)) * xv (ix2 0 p)

/-! ## The softmax of a row of 128 scores -/

/-- The row's maximum as the programs take it: the fold of max from −∞ over the row, then max against −∞ again. -/
def rowMax (sc : Fin 128 → EReal) : EReal :=
  FloatOps.maximumf (F := Ideal) (φ := .f32) (Ideal.ofBits .f32 0xFF800000#32)
    ((Finset.univ : Finset (Fin 128)).fold (FloatOps.maximumf (F := Ideal) (φ := .f32)) (Ideal.ofBits .f32 0xFF800000#32) sc)
/-- The exponential of a score shifted by the row's maximum. -/
def expShift (sc : Fin 128 → EReal) (s : Fin 128) : EReal :=
  FloatOps.hostUnary (F := Ideal) (φ := .f32) .exp (FloatOps.subf (F := Ideal) (φ := .f32) (sc s) (rowMax sc))
/-- The softmax at s. -/
def softmaxAt (sc : Fin 128 → EReal) (s : Fin 128) : EReal :=
  FloatOps.hostDivf (F := Ideal) (φ := .f32) (expShift sc s) (Ideal.ofBits .f32 0x00000000#32 + ∑ s' : Fin 128, expShift sc s')

/-- The result array: at (t, s, b, 0) the softmax over the source positions of the scores of (t, b). -/
def G (h : ShH.Idx → EReal) (src : ShS.Idx → EReal) (W : ShW.Idx → EReal) (b : ShB.Idx → EReal) (v : ShV.Idx → EReal) :
    ShOut.Idx → EReal :=
  fun i => softmaxAt (fun s' => score h src W b v (i 0) (i 2) s') (i 1)

end Cert.Attn

end
-- ==== Proof.KernelBlocks.lean ====
/-
  The blocks a grid point loads, read off the argument arrays.

  Grid point t (of 32, row-major over 4 × 8) works on target positions 8·(t / 8) … 8·(t / 8) + 7 and on tile t % 8 of
  the hidden units.  Its target block is rows of h; its source block is src with the first two axes swapped; its
  weight block is the tile's 128 columns of W transposed (feature r of the left half at row r, of the right half at
  row 1024 + r); its bias and v blocks are the tile's 128 entries.  So the tile the body computes from its blocks is
  the tile's partial score of the specification.
-/
import proofs.«170050_j79894981640368_1_alg».proof.Proof.Gen.KernelIdeal.Frame
import proofs.«170050_j79894981640368_1_alg».proof.Proof.Spec
import Idealize.ShloMosaic.Lib.Pipeline.Value
import Idealize.ShloMosaic.Lib.ValueLayout
import Idealize.ShloMosaic.Lib.StableHlo.Run
import Idealize.ShloMosaic.Lib.Tactic

noncomputable section

open scoped BigOperators

namespace Cert.KernelBlocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The argument arrays at launch. -/
abbrev argH (c : Dev nD) : Cert.Attn.ShH.Idx → EReal := m ((c : Thread nD τ).loc main_arg0)
abbrev argS (c : Dev nD) : Cert.Attn.ShS.Idx → EReal := m ((c : Thread nD τ).loc main_arg1)
abbrev argW (c : Dev nD) : Cert.Attn.ShW.Idx → EReal := m ((c : Thread nD τ).loc main_arg2)
abbrev argB (c : Dev nD) : Cert.Attn.ShB.Idx → EReal := m ((c : Thread nD τ).loc main_arg3)
abbrev argV (c : Dev nD) : Cert.Attn.ShV.Idx → EReal := m ((c : Thread nD τ).loc main_arg4)

/-- The blocks point t loads, at their literal types. -/
abbrev blkH (c : Dev nD) (t : Fin cfg0.N) : Vec Ideal S8x16x1024 .bf16 := iblk m c 0 t
abbrev blkS (c : Dev nD) (t : Fin cfg0.N) : Vec Ideal S16x128x1024 .bf16 := iblk m c 1 t
abbrev blkW (c : Dev nD) (t : Fin cfg0.N) : Vec Ideal S2048x128 .bf16 := iblk m c 2 t
abbrev blkB (c : Dev nD) (t : Fin cfg0.N) : Vec Ideal S1x128 .f32 := iblk m c 3 t
abbrev blkV (c : Dev nD) (t : Fin cfg0.N) : Vec Ideal S1x128 .f32 := iblk m c 4 t

/-- Point t's target position a, and its tile of the hidden units. -/
abbrev rowOf (t : Fin cfg0.N) (a : Fin 8) : Fin 32 :=
  ⟨8 * (t.val / 8) + a.val, by have := t.isLt; have h : cfg0.N = 32 := N_0; have := a.isLt; omega⟩
abbrev tileOf (t : Fin cfg0.N) : Fin 8 := ⟨t.val % 8, Nat.mod_lt _ (by decide)⟩

/-! ## The arrays the region finds -/

theorem V_v0 (c : Dev nD) : (V m c main_v0 : S32x16x1024.Idx → EReal) = argH m c := by
  show StableHlo.after hostOps0 (fun b => m (c, b)) (Proc.devRef .tc main_v0) = _
  after_results
  rfl

theorem V_v2 (c : Dev nD) : (V m c main_v2 : S16x128x1024.Idx → EReal)
    = transpose S16x128x1024 [1, 0, 2] (argS m c) transposes_S128x16x1024_S16x128x1024_1_0_2 := by
  show StableHlo.after hostOps0 (fun b => m (c, b)) (Proc.devRef .tc main_v2) = _
  after_results
  rfl

theorem V_v4 (c : Dev nD) : (V m c main_v4 : S2048x1024.Idx → EReal)
    = transpose S2048x1024 [1, 0] (argW m c) transposes_S1024x2048_S2048x1024_1_0 := by
  show StableHlo.after hostOps0 (fun b => m (c, b)) (Proc.devRef .tc main_v4) = _
  after_results
  rfl

theorem V_v5 (c : Dev nD) : (V m c main_v5 : S1x1024.Idx → EReal)
    = shapeCast S1x1024 (argB m c) shapeCasts_S1024_S1x1024 := by
  show StableHlo.after hostOps0 (fun b => m (c, b)) (Proc.devRef .tc main_v5) = _
  after_results
  rfl

/-! ## The index maps over the grid -/

theorem idx0 : ∀ t : Fin cfg0.N, win0_0.index t (0 : Fin 3) = t.val / 8 ∧ win0_0.index t (1 : Fin 3) = 0 ∧ win0_0.index t (2 : Fin 3) = 0 :=
  (by decide +kernel : ∀ t : Fin grid0.N, win0_0.index t (0 : Fin 3) = t.val / 8 ∧ win0_0.index t (1 : Fin 3) = 0 ∧ win0_0.index t (2 : Fin 3) = 0)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, win0_1.index t (0 : Fin 3) = 0 ∧ win0_1.index t (1 : Fin 3) = 0 ∧ win0_1.index t (2 : Fin 3) = 0)
theorem idx2 : ∀ t : Fin cfg0.N, win0_2.index t (0 : Fin 2) = 0 ∧ win0_2.index t (1 : Fin 2) = t.val % 8 :=
  (by decide +kernel : ∀ t : Fin grid0.N, win0_2.index t (0 : Fin 2) = 0 ∧ win0_2.index t (1 : Fin 2) = t.val % 8)
theorem idx3 : ∀ t : Fin cfg0.N, win0_3.index t (0 : Fin 2) = 0 ∧ win0_3.index t (1 : Fin 2) = t.val % 8 :=
  (by decide +kernel : ∀ t : Fin grid0.N, win0_3.index t (0 : Fin 2) = 0 ∧ win0_3.index t (1 : Fin 2) = t.val % 8)
theorem idx4 : ∀ t : Fin cfg0.N, win0_4.index t (0 : Fin 2) = 0 ∧ win0_4.index t (1 : Fin 2) = t.val % 8 :=
  (by decide +kernel : ∀ t : Fin grid0.N, win0_4.index t (0 : Fin 2) = 0 ∧ win0_4.index t (1 : Fin 2) = t.val % 8)

/-! ## Each block at an index -/

theorem blkH_apply (c : Dev nD) (t : Fin cfg0.N) (a : Fin 8) (bb : Fin 16) (k : Fin 1024) :
    blkH m c t (ix3 a bb k) = argH m c (ix3 (rowOf t a) bb k) := by
  unfold blkH iblk
  rw [View.read_apply]
  show (V m c main_v0 : S32x16x1024.Idx → EReal) _ = _
  rw [V_v0]
  refine congrArg (argH m c) (funext fun d => Fin.ext ?_)
  have hi := idx0 t
  match d with
  | ⟨0, _⟩ => show win0_0.index t 0 * 8 + 1 * a.val = 8 * (t.val / 8) + a.val; rw [hi.1]; omega
  | ⟨1, _⟩ => show win0_0.index t 1 * 16 + 1 * bb.val = bb.val; rw [hi.2.1]; omega
  | ⟨2, _⟩ => show win0_0.index t 2 * 1024 + 1 * k.val = k.val; rw [hi.2.2]; omega

theorem blkS_apply (c : Dev nD) (t : Fin cfg0.N) (bb : Fin 16) (s : Fin 128) (k : Fin 1024) :
    blkS m c t (ix3 bb s k) = argS m c (ix3 s bb k) := by
  unfold blkS iblk
  rw [View.read_apply]
  show (V m c main_v2 : S16x128x1024.Idx → EReal) _ = _
  rw [V_v2]
  refine transpose_apply [1, 0, 2] (argS m c) transposes_S128x16x1024_S16x128x1024_1_0_2 _ (ix3 s bb k) (fun d => ?_)
  have hi := idx1 t
  match d with
  | ⟨0, _⟩ => show bb.val = win0_1.index t 0 * 16 + 1 * bb.val; rw [hi.1]; omega
  | ⟨1, _⟩ => show s.val = win0_1.index t 1 * 128 + 1 * s.val; rw [hi.2.1]; omega
  | ⟨2, _⟩ => show k.val = win0_1.index t 2 * 1024 + 1 * k.val; rw [hi.2.2]; omega

theorem blkW_apply (c : Dev nD) (t : Fin cfg0.N) (r : Fin 2048) (p : Fin 128) :
    blkW m c t (ix2 r p) = argW m c (ix2 (Cert.Attn.tileUnit (tileOf t) p) r) := by
  unfold blkW iblk
  rw [View.read_apply]
  show (V m c main_v4 : S2048x1024.Idx → EReal) _ = _
  rw [V_v4]
  refine transpose_apply [1, 0] (argW m c) transposes_S1024x2048_S2048x1024_1_0 _ (ix2 (Cert.Attn.tileUnit (tileOf t) p) r) (fun d => ?_)
  have hi := idx2 t
  match d with
  | ⟨0, _⟩ => show r.val = win0_2.index t 0 * 2048 + 1 * r.val; rw [hi.1]; omega
  | ⟨1, _⟩ => show t.val % 8 * 128 + p.val = win0_2.index t 1 * 128 + 1 * p.val; rw [hi.2]; omega

theorem blkB_apply (c : Dev nD) (t : Fin cfg0.N) (p : Fin 128) :
    blkB m c t (ix2 0 p) = argB m c (ix1 (Cert.Attn.tileUnit (tileOf t) p)) := by
  unfold blkB iblk
  rw [View.read_apply]
  show (V m c main_v5 : S1x1024.Idx → EReal) _ = _
  rw [V_v5]
  refine (congrArg _ (?_ : _ = ix2 (0 : Fin 1) (Cert.Attn.tileUnit (tileOf t) p))).trans (shapeCast_a_1a_apply (argB m c) shapeCasts_S1024_S1x1024 0 _)
  have hi := idx3 t
  refine funext fun d => Fin.ext ?_
  match d with
  | ⟨0, _⟩ => show win0_3.index t 0 * 1 + 1 * 0 = 0; rw [hi.1]
  | ⟨1, _⟩ => show win0_3.index t 1 * 128 + 1 * p.val = t.val % 8 * 128 + p.val; rw [hi.2]; omega

theorem blkV_apply (c : Dev nD) (t : Fin cfg0.N) (p : Fin 128) :
    blkV m c t (ix2 0 p) = argV m c (ix2 0 (Cert.Attn.tileUnit (tileOf t) p)) := by
  unfold blkV iblk
  rw [View.read_apply]
  show (V m c main_arg4 : S1x1024.Idx → EReal) _ = _
  rw [V_main_arg4]
  refine congrArg (argV m c) (funext fun d => Fin.ext ?_)
  have hi := idx4 t
  match d with
  | ⟨0, _⟩ => show win0_4.index t 0 * 1 + 1 * 0 = 0; rw [hi.1]
  | ⟨1, _⟩ => show win0_4.index t 1 * 128 + 1 * p.val = t.val % 8 * 128 + p.val; rw [hi.2]; omega

/-! ## The tile the body computes is the specification's -/

/-- Over its blocks, point t's tile at (a, b, s) is tile t % 8 of the score of (8·(t / 8) + a, b, s). -/
theorem tile_eq (c : Dev nD) (t : Fin cfg0.N) (a : Fin 8) (bb : Fin 16) (s : Fin 128) :
    Cert.Attn.tileOfBlocks (blkH m c t) (blkS m c t) (blkW m c t) (blkB m c t) (blkV m c t) a bb s
      = Cert.Attn.tileSum (argH m c) (argS m c) (argW m c) (argB m c) (argV m c) (rowOf t a) bb s (tileOf t) := by
  unfold Cert.Attn.tileOfBlocks Cert.Attn.tileSum Cert.Attn.term Cert.Attn.projT Cert.Attn.projS
  refine Finset.sum_congr rfl fun p _ => ?_
  rw [blkB_apply, blkV_apply]
  refine congrArg₂ (· * ·) (congrArg Ideal.tanh (congrArg₂ (· + ·) (congrArg₂ (· + ·) ?_ ?_) rfl)) rfl
  · refine Finset.sum_congr rfl fun k _ => ?_
    rw [blkH_apply, blkW_apply]
  · refine Finset.sum_congr rfl fun k _ => ?_
    rw [blkS_apply, blkW_apply]

end Cert.KernelBlocks

end
-- ==== Proof.KernelTail.lean ====
/-
  The host operations after the kernel region, read at an index.

  After the region the program holds the score array x of shape [32,16,128] (target position, batch entry, source
  position).  The operations that follow take, along the last axis, the maximum from −∞ (and once more against −∞),
  subtract it, exponentiate, sum from 0 and divide: the softmax over the source positions; then they swap the last
  two axes and append a unit axis.  So the result at (t, s, b, 0) is the softmax of s' ↦ x (t, b, s') at s.
-/
import proofs.«170050_j79894981640368_1_alg».proof.Proof.Gen.KernelIdeal
import proofs.«170050_j79894981640368_1_alg».proof.Proof.Spec
import Idealize.ShloMosaic.PureOps.Reduce
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Cert.KernelTail

open Cert.KernelIdeal Cert.KernelIdeal.Gen Idealize.ShloMosaic Idealize.ShloMosaic.ValueIdx

/-- A [32,16] array broadcast to [32,16,1] and then along the source positions to [32,16,128] reads (t, b). -/
theorem rowBroadcast_apply {α : Type} (y : S32x16.Idx → α) (t : Fin 32) (bb : Fin 16) (s : Fin 128) :
    broadcastInDim S32x16x128 ![0, 1, 2] bcast_S32x16x1_S32x16x128_0_1_2
      (broadcastInDim S32x16x1 ![0, 1] bcast_S32x16_S32x16x1_0_1 y) (ix3 t bb s) = y (ix2 t bb) := by
  refine (broadcastInDim_apply _ bcast_S32x16x1_S32x16x128_0_1_2 _ (ix3 t bb s) (ix3 t bb (0 : Fin 1)) (fun a => ?_)).trans ?_
  · match a with
    | ⟨0, _⟩ => show t.val = if (32 : Nat) = 1 then 0 else t.val; rw [if_neg (by decide)]
    | ⟨1, _⟩ => show bb.val = if (16 : Nat) = 1 then 0 else bb.val; rw [if_neg (by decide)]
    | ⟨2, _⟩ => show 0 = if (1 : Nat) = 1 then 0 else s.val; rw [if_pos rfl]
  · refine broadcastInDim_apply _ bcast_S32x16_S32x16x1_0_1 y (ix3 t bb (0 : Fin 1)) (ix2 t bb) (fun a => ?_)
    match a with
    | ⟨0, _⟩ => show t.val = if (32 : Nat) = 1 then 0 else t.val; rw [if_neg (by decide)]
    | ⟨1, _⟩ => show bb.val = if (16 : Nat) = 1 then 0 else bb.val; rw [if_neg (by decide)]

/-- The row of scores of (t, b). -/
abbrev row (x : FVec Ideal S32x16x128 .f32) (t : Fin 32) (bb : Fin 16) : Fin 128 → EReal := fun s' => x (ix3 t bb s')

theorem reducesD2 : S32x16x128.Reduces [2] S32x16 := by decide

theorem lift_eq (t : Fin 32) (bb : Fin 16) (k : Fin 128) : reducesD2.lift (ix2 t bb) k = ix3 t bb k :=
  funext fun a => Fin.ext (by match a with | ⟨0, _⟩ => rfl | ⟨1, _⟩ => rfl | ⟨2, _⟩ => rfl)

/-- The maximum over the source positions, from −∞, at (t, b): the fold of max over the row. -/
theorem rowMaxReduce_apply (x : FVec Ideal S32x16x128 .f32) (t : Fin 32) (bb : Fin 16) :
    Host.reduce (FloatOps.maximumf (F := Ideal) (φ := .f32)) x (constant (F := Ideal) S_ .f32 0xFF800000#32) reducesTo_S32x16x128_S32x16_d2 h_S_ (ix2 t bb)
      = (Finset.univ : Finset (Fin 128)).fold (FloatOps.maximumf (F := Ideal) (φ := .f32)) (Ideal.ofBits .f32 0xFF800000#32) (row x t bb) := by
  rw [Host.reduce_eq_fold_single (FloatOps.maximumf (F := Ideal) (φ := .f32)) x _ reducesTo_S32x16x128_S32x16_d2 reducesD2 h_S_ (ix2 t bb)]
  have e : x ∘ reducesD2.lift (ix2 t bb) = row x t bb := funext fun k => congrArg x (lift_eq t bb k)
  rw [e]
  rfl

/-- The sum over the source positions, from 0, at (t, b). -/
theorem rowSumReduce_apply (e : FVec Ideal S32x16x128 .f32) (t : Fin 32) (bb : Fin 16) :
    Host.reduceAdd e (constant (F := Ideal) S_ .f32 0x00000000#32) reducesTo_S32x16x128_S32x16_d2 h_S_ (ix2 t bb)
      = Ideal.ofBits .f32 0x00000000#32 + ∑ k : Fin 128, e (ix3 t bb k) := by
  rw [hostReduceAdd_apply, Ideal.hostReduceAdd_single reducesTo_S32x16x128_S32x16_d2 reducesD2]
  refine congrArg₂ (· + ·) rfl (Finset.sum_congr rfl fun k _ => ?_)
  exact congrArg e (lift_eq t bb k)

/-- The host operations after the region as ONE function of the score array. -/
def tail (x : FVec Ideal S32x16x128 .f32) : FVec Ideal S32x128x16x1 .f32 :=
  broadcastInDim S32x128x16x1 ![0, 1, 2] bcast_S32x128x16_S32x128x16x1_0_1_2
    (transpose S32x128x16 [0, 2, 1]
      (Host.divf
        (Host.exp (subf x (broadcastInDim S32x16x128 ![0, 1, 2] bcast_S32x16x1_S32x16x128_0_1_2 (broadcastInDim S32x16x1 ![0, 1] bcast_S32x16_S32x16x1_0_1
          (maximumf (broadcastInDim S32x16 ![] bcast_S_S32x16 (constant (F := Ideal) S_ .f32 0xFF800000#32))
            (Host.reduce FloatOps.maximumf x (constant (F := Ideal) S_ .f32 0xFF800000#32) reducesTo_S32x16x128_S32x16_d2 h_S_))))))
        (broadcastInDim S32x16x128 ![0, 1, 2] bcast_S32x16x1_S32x16x128_0_1_2 (broadcastInDim S32x16x1 ![0, 1] bcast_S32x16_S32x16x1_0_1
          (Host.reduceAdd
            (Host.exp (subf x (broadcastInDim S32x16x128 ![0, 1, 2] bcast_S32x16x1_S32x16x128_0_1_2 (broadcastInDim S32x16x1 ![0, 1] bcast_S32x16_S32x16x1_0_1
              (maximumf (broadcastInDim S32x16 ![] bcast_S_S32x16 (constant (F := Ideal) S_ .f32 0xFF800000#32))
                (Host.reduce FloatOps.maximumf x (constant (F := Ideal) S_ .f32 0xFF800000#32) reducesTo_S32x16x128_S32x16_d2 h_S_))))))
            (constant (F := Ideal) S_ .f32 0x00000000#32) reducesTo_S32x16x128_S32x16_d2 h_S_))))
      transposes_S32x16x128_S32x128x16_0_2_1)

/-- The shifted exponential at (t, b, s), the operations read one by one. -/
theorem expShift_apply (x : FVec Ideal S32x16x128 .f32) (t : Fin 32) (bb : Fin 16) (s : Fin 128) :
    Host.exp (subf x (broadcastInDim S32x16x128 ![0, 1, 2] bcast_S32x16x1_S32x16x128_0_1_2 (broadcastInDim S32x16x1 ![0, 1] bcast_S32x16_S32x16x1_0_1
      (maximumf (broadcastInDim S32x16 ![] bcast_S_S32x16 (constant (F := Ideal) S_ .f32 0xFF800000#32))
        (Host.reduce FloatOps.maximumf x (constant (F := Ideal) S_ .f32 0xFF800000#32) reducesTo_S32x16x128_S32x16_d2 h_S_))))) (ix3 t bb s)
      = Cert.Attn.expShift (row x t bb) s := by
  show FloatOps.hostUnary .exp (FloatOps.subf (x (ix3 t bb s)) _) = _
  rw [rowBroadcast_apply]
  show FloatOps.hostUnary .exp (FloatOps.subf (x (ix3 t bb s)) (FloatOps.maximumf _ (Host.reduce _ x _ _ _ (ix2 t bb)))) = _
  rw [rowMaxReduce_apply]
  rfl

/-- The result at (t, s, b, 0): the softmax of the row of (t, b) at s. -/
theorem tail_apply (x : FVec Ideal S32x16x128 .f32) (t : Fin 32) (s : Fin 128) (bb : Fin 16) (z : Fin 1) :
    tail x (ix4 t s bb z) = Cert.Attn.softmaxAt (row x t bb) s := by
  unfold tail
  refine (broadcastInDim_apply _ bcast_S32x128x16_S32x128x16x1_0_1_2 _ (ix4 t s bb z) (ix3 t s bb) (fun a => ?_)).trans ?_
  · match a with
    | ⟨0, _⟩ => show t.val = if (32 : Nat) = 1 then 0 else t.val; rw [if_neg (by decide)]
    | ⟨1, _⟩ => show s.val = if (128 : Nat) = 1 then 0 else s.val; rw [if_neg (by decide)]
    | ⟨2, _⟩ => show bb.val = if (16 : Nat) = 1 then 0 else bb.val; rw [if_neg (by decide)]
  refine (transpose_apply [0, 2, 1] _ transposes_S32x16x128_S32x128x16_0_2_1 (ix3 t s bb) (ix3 t bb s) (fun b => ?_)).trans ?_
  · match b with
    | ⟨0, _⟩ => rfl
    | ⟨1, _⟩ => rfl
    | ⟨2, _⟩ => rfl
  show FloatOps.hostDivf _ _ = _
  rw [expShift_apply, rowBroadcast_apply, rowSumReduce_apply]
  unfold Cert.Attn.softmaxAt
  refine congrArg₂ _ rfl (congrArg₂ (· + ·) rfl (Finset.sum_congr rfl fun k _ => ?_))
  exact expShift_apply x t bb k

end Cert.KernelTail

end
-- ==== Proof.KernelBody.lean ====
/-
  The kernel body's arithmetic at an index.

  One grid point loads a block of 8 target positions (all 16 batch entries, 1024 features), the block of all
  16 × 128 (batch, source) pairs, a tile of 128 hidden units of W transposed (row r < 1024: feature r of the left half,
  row 1024 + r: feature r of the right half), and the same tile of the bias and of v.  The body's result at (a, b, s) is
  what the accumulator held there plus the tile's partial score

      ∑ₚ tanh( (∑ₖ h[a,b,k]·W[k,p]) + (∑ₖ src[b,s,k]·W[1024+k,p]) + bias[0,p] ) · v[0,p],

  p over the tile's 128 units, k over the 1024 features.  The body reaches it through changes of arrangement only:
  the target block is read as 128 rows (row 16a + b) and multiplied with the upper half of the tile, the source block
  as 2048 rows (row 128b + s) and multiplied with the lower half; both products are read back by (a, b) and (b, s),
  given a unit axis and repeated over the missing coordinate; the bias and v rows are repeated over every (a, b, s);
  the last axis is summed from zero.  Over the extended reals every one of these steps is exact, so each is read at an
  index: a change of arrangement reads its operand at the index with the same row-major position, a product into a zero
  accumulator is the sum over the contracted coordinate, and the sum over the last axis is the sum over p.
-/
import proofs.«170050_j79894981640368_1_alg».proof.Proof.Gen.KernelIdeal.Skeleton
import proofs.«170050_j79894981640368_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelBody

open Cert.KernelIdeal Cert.KernelIdeal.Gen Idealize.ShloMosaic Idealize.ShloMosaic.ValueIdx

/-! ## The two products -/

theorem lhs_dotT_0 (i : S128x128.Idx) (q : dot_S128x1024_S1024x128_S128x128_1_0_0_1_n_n.contr.Idx) :
    (dot_S128x1024_S1024x128_S128x128_1_0_0_1_n_n.lhsIdx i q 0).val = (i 0).val := by
  unfold DotDims.lhsIdx
  rw [dif_neg (show ¬(0 : Fin S128x1024.rank) ∈ dot_S128x1024_S1024x128_S128x128_1_0_0_1_n_n.lhsBatch by decide), dif_pos (show (0 : Fin S128x1024.rank) ∈ dot_S128x1024_S1024x128_S128x128_1_0_0_1_n_n.lhsNonContracting by decide)]
  rfl
theorem lhs_dotT_1 (i : S128x128.Idx) (q : dot_S128x1024_S1024x128_S128x128_1_0_0_1_n_n.contr.Idx) :
    (dot_S128x1024_S1024x128_S128x128_1_0_0_1_n_n.lhsIdx i q 1).val = (q ⟨0, by decide⟩).val :=
  dot_S128x1024_S1024x128_S128x128_1_0_0_1_n_n.lhsIdx_val_of_single rfl i q
theorem rhs_dotT_0 (i : S128x128.Idx) (q : dot_S128x1024_S1024x128_S128x128_1_0_0_1_n_n.contr.Idx) :
    (dot_S128x1024_S1024x128_S128x128_1_0_0_1_n_n.rhsIdx i q 0).val = (q ⟨0, by decide⟩).val :=
  dot_S128x1024_S1024x128_S128x128_1_0_0_1_n_n.rhsIdx_val_of_single rfl i q
theorem rhs_dotT_1 (i : S128x128.Idx) (q : dot_S128x1024_S1024x128_S128x128_1_0_0_1_n_n.contr.Idx) :
    (dot_S128x1024_S1024x128_S128x128_1_0_0_1_n_n.rhsIdx i q 1).val = (i 1).val := by
  unfold DotDims.rhsIdx
  rw [dif_neg (show ¬(1 : Fin S1024x128.rank) ∈ dot_S128x1024_S1024x128_S128x128_1_0_0_1_n_n.rhsBatch by decide), dif_pos (show (1 : Fin S1024x128.rank) ∈ dot_S128x1024_S1024x128_S128x128_1_0_0_1_n_n.rhsNonContracting by decide)]
  rfl

theorem dotT_apply (l : FVec Ideal S128x1024 .bf16) (r : FVec Ideal S1024x128 .bf16) (i : Fin 128) (p : Fin 128) :
    matmul dot_S128x1024_S1024x128_S128x128_1_0_0_1_n_n none l r (constant (F := Ideal) S128x128 .f32 0x00000000#32) (ix2 i p)
      = ∑ k : Fin 1024, l (ix2 i k) * r (ix2 k p) := by
  simp only [matmul]
  rw [Ideal.matmul_constant_zero_apply, ← Equiv.sum_comp (ValueIdx.contrEquiv1 dot_S128x1024_S1024x128_S128x128_1_0_0_1_n_n 1024 rfl rfl).symm]
  refine Finset.sum_congr rfl fun k _ => ?_
  have hk := ValueIdx.contrEquiv1_symm_val dot_S128x1024_S1024x128_S128x128_1_0_0_1_n_n 1024 rfl rfl k
  have el : dot_S128x1024_S1024x128_S128x128_1_0_0_1_n_n.lhsIdx (ix2 i p) ((ValueIdx.contrEquiv1 dot_S128x1024_S1024x128_S128x128_1_0_0_1_n_n 1024 rfl rfl).symm k) = ix2 i k := funext fun a => Fin.ext (by
    match a with
    | ⟨0, _⟩ => exact lhs_dotT_0 _ _
    | ⟨1, _⟩ => exact (lhs_dotT_1 _ _).trans hk)
  have er : dot_S128x1024_S1024x128_S128x128_1_0_0_1_n_n.rhsIdx (ix2 i p) ((ValueIdx.contrEquiv1 dot_S128x1024_S1024x128_S128x128_1_0_0_1_n_n 1024 rfl rfl).symm k) = ix2 k p := funext fun a => Fin.ext (by
    match a with
    | ⟨0, _⟩ => exact (rhs_dotT_0 _ _).trans hk
    | ⟨1, _⟩ => exact rhs_dotT_1 _ _)
  rw [el, er]

theorem lhs_dotS_0 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
theorem lhs_dotS_1 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
theorem rhs_dotS_0 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
theorem rhs_dotS_1 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

theorem dotS_apply (l : FVec Ideal S2048x1024 .bf16) (r : FVec Ideal S1024x128 .bf16) (i : Fin 2048) (p : Fin 128) :
    matmul dot_S2048x1024_S1024x128_S2048x128_1_0_0_1_n_n none l r (constant (F := Ideal) S2048x128 .f32 0x00000000#32) (ix2 i p)
      = ∑ k : Fin 1024, l (ix2 i k) * r (ix2 k p) := by
  simp only [matmul]
  rw [Ideal.matmul_constant_zero_apply, ← Equiv.sum_comp (ValueIdx.contrEquiv1 dot_S2048x1024_S1024x128_S2048x128_1_0_0_1_n_n 1024 rfl rfl).symm]
  refine Finset.sum_congr rfl fun k _ => ?_
  have hk := ValueIdx.contrEquiv1_symm_val dot_S2048x1024_S1024x128_S2048x128_1_0_0_1_n_n 1024 rfl rfl k
  have el : dot_S2048x1024_S1024x128_S2048x128_1_0_0_1_n_n.lhsIdx (ix2 i p) ((ValueIdx.contrEquiv1 dot_S2048x1024_S1024x128_S2048x128_1_0_0_1_n_n 1024 rfl rfl).symm k) = ix2 i k := funext fun a => Fin.ext (by
    match a with
    | ⟨0, _⟩ => exact lhs_dotS_0 _ _
    | ⟨1, _⟩ => exact (lhs_dotS_1 _ _).trans hk)
  have er : dot_S2048x1024_S1024x128_S2048x128_1_0_0_1_n_n.rhsIdx (ix2 i p) ((ValueIdx.contrEquiv1 dot_S2048x1024_S1024x128_S2048x128_1_0_0_1_n_n 1024 rfl rfl).symm k) = ix2 k p := funext fun a => Fin.ext (by
    match a with
    | ⟨0, _⟩ => exact (rhs_dotS_0 _ _).trans hk
    | ⟨1, _⟩ => exact rhs_dotS_1 _ _)
  rw [el, er]

/-! ## The layout operations at coordinates -/

/-- Row 16a + b of the [128, ·] view of an [8, 16, ·] block. -/
abbrev rowT (a : Fin 8) (bb : Fin 16) : Fin 128 := ⟨16 * a.val + bb.val, by have := a.isLt; have := bb.isLt; omega⟩
/-- Row 128b + s of the [2048, ·] view of a [16, 128, ·] block. -/
abbrev rowS (bb : Fin 16) (s : Fin 128) : Fin 2048 := ⟨128 * bb.val + s.val, by have := bb.isLt; have := s.isLt; omega⟩

section Layout
variable {α : Type}

/-- The upper half of the weight tile: row k. -/
theorem sliceL_apply (x : S2048x128.Idx → α) (h : S2048x128.Slices ![0, 0] S1024x128) (k : Fin 1024) (p : Fin 128) :
    extractStridedSlice S1024x128 ![0, 0] x h (ix2 k p) = x (ix2 (Cert.Attn.colL k) p) :=
  extractStridedSlice_apply ![0, 0] x h (ix2 k p) (ix2 (Cert.Attn.colL k) p) (fun a => match a with
    | ⟨0, _⟩ => by show k.val = 0 + k.val; omega
    | ⟨1, _⟩ => by show p.val = 0 + p.val; omega)

/-- The lower half of the weight tile: row 1024 + k. -/
theorem sliceR_apply (x : S2048x128.Idx → α) (h : S2048x128.Slices ![1024, 0] S1024x128) (k : Fin 1024) (p : Fin 128) :
    extractStridedSlice S1024x128 ![1024, 0] x h (ix2 k p) = x (ix2 (Cert.Attn.colR k) p) :=
  extractStridedSlice_apply ![1024, 0] x h (ix2 k p) (ix2 (Cert.Attn.colR k) p) (fun a => match a with
    | ⟨0, _⟩ => by show 1024 + k.val = 1024 + k.val; omega
    | ⟨1, _⟩ => by show p.val = 0 + p.val; omega)

/-- The target block seen as 128 rows: row 16a + b is (a, b). -/
theorem castH_apply (x : S8x16x1024.Idx → α) (h : S8x16x1024.ShapeCasts S128x1024) (a : Fin 8) (bb : Fin 16) (k : Fin 1024) :
    shapeCast S128x1024 x h (ix2 (rowT a bb) k) = x (ix3 a bb k) :=
  shapeCast_apply x h (ix2 (rowT a bb) k) (ix3 a bb k) (by
    rw [Shape.rowMajor_val_three, Shape.rowMajor_val_two]
    show (a.val * 16 + bb.val) * 1024 + k.val = (16 * a.val + bb.val) * 1024 + k.val
    omega)

/-- The source block seen as 2048 rows: row 128b + s is (b, s). -/
theorem castS_apply (x : S16x128x1024.Idx → α) (h : S16x128x1024.ShapeCasts S2048x1024) (bb : Fin 16) (s : Fin 128) (k : Fin 1024) :
    shapeCast S2048x1024 x h (ix2 (rowS bb s) k) = x (ix3 bb s k) :=
  shapeCast_apply x h (ix2 (rowS bb s) k) (ix3 bb s k) (by
    rw [Shape.rowMajor_val_three, Shape.rowMajor_val_two]
    show (bb.val * 128 + s.val) * 1024 + k.val = (128 * bb.val + s.val) * 1024 + k.val
    omega)

/-- The first product's 128 rows seen as (a, b). -/
theorem castPT_apply (y : S128x128.Idx → α) (h : S128x128.ShapeCasts S8x16x128) (a : Fin 8) (bb : Fin 16) (p : Fin 128) :
    shapeCast S8x16x128 y h (ix3 a bb p) = y (ix2 (rowT a bb) p) :=
  shapeCast_apply y h (ix3 a bb p) (ix2 (rowT a bb) p) (by
    rw [Shape.rowMajor_val_three, Shape.rowMajor_val_two]
    show (16 * a.val + bb.val) * 128 + p.val = (a.val * 16 + bb.val) * 128 + p.val
    omega)

/-- The second product's 2048 rows seen as (b, s). -/
theorem castPS_apply (y : S2048x128.Idx → α) (h : S2048x128.ShapeCasts S16x128x128) (bb : Fin 16) (s : Fin 128) (p : Fin 128) :
    shapeCast S16x128x128 y h (ix3 bb s p) = y (ix2 (rowS bb s) p) :=
  shapeCast_apply y h (ix3 bb s p) (ix2 (rowS bb s) p) (by
    rw [Shape.rowMajor_val_three, Shape.rowMajor_val_two]
    show (128 * bb.val + s.val) * 128 + p.val = (bb.val * 128 + s.val) * 128 + p.val
    omega)

/-- A unit source axis put into the target projection. -/
theorem cast4T_apply (y : S8x16x128.Idx → α) (h : S8x16x128.ShapeCasts S8x16x1x128) (a : Fin 8) (bb : Fin 16) (p : Fin 128) :
    shapeCast S8x16x1x128 y h (ix4 a bb (0 : Fin 1) p) = y (ix3 a bb p) :=
  shapeCast_apply y h (ix4 a bb (0 : Fin 1) p) (ix3 a bb p) (by
    rw [Shape.rowMajor_val_three, Shape.rowMajor_val_four]
    show (a.val * 16 + bb.val) * 128 + p.val = ((a.val * 16 + bb.val) * 1 + 0) * 128 + p.val
    omega)

/-- A unit target axis put in front of the source projection. -/
theorem cast4S_apply (y : S16x128x128.Idx → α) (h : S16x128x128.ShapeCasts S1x16x128x128) (bb : Fin 16) (s : Fin 128) (p : Fin 128) :
    shapeCast S1x16x128x128 y h (ix4 (0 : Fin 1) bb s p) = y (ix3 bb s p) :=
  shapeCast_apply y h (ix4 (0 : Fin 1) bb s p) (ix3 bb s p) (by
    rw [Shape.rowMajor_val_three, Shape.rowMajor_val_four]
    show (bb.val * 128 + s.val) * 128 + p.val = ((0 * 16 + bb.val) * 128 + s.val) * 128 + p.val
    omega)

/-- A row of 128 hidden units seen with three unit axes in front. -/
theorem cast4R_apply (y : S1x128.Idx → α) (h : S1x128.ShapeCasts S1x1x1x128) (p : Fin 128) :
    shapeCast S1x1x1x128 y h (ix4 (0 : Fin 1) (0 : Fin 1) (0 : Fin 1) p) = y (ix2 (0 : Fin 1) p) :=
  shapeCast_apply y h (ix4 (0 : Fin 1) (0 : Fin 1) (0 : Fin 1) p) (ix2 (0 : Fin 1) p) (by
    rw [Shape.rowMajor_val_two, Shape.rowMajor_val_four]
    show 0 * 128 + p.val = ((0 * 1 + 0) * 1 + 0) * 128 + p.val
    omega)

/-- The target projection repeated over the source positions. -/
theorem bcastT_apply (y : S8x16x1x128.Idx → α) (h : S8x16x1x128.Broadcasts S8x16x128x128) (a : Fin 8) (bb : Fin 16) (s : Fin 128) (p : Fin 128) :
    broadcastTo S8x16x128x128 y h (ix4 a bb s p) = y (ix4 a bb (0 : Fin 1) p) :=
  broadcastTo_apply y h (ix4 a bb s p) (ix4 a bb (0 : Fin 1) p) (fun c => match c with
    | ⟨0, _⟩ => rfl
    | ⟨1, _⟩ => rfl
    | ⟨2, _⟩ => rfl
    | ⟨3, _⟩ => rfl)

/-- The source projection repeated over the target positions. -/
theorem bcastS_apply (y : S1x16x128x128.Idx → α) (h : S1x16x128x128.Broadcasts S8x16x128x128) (a : Fin 8) (bb : Fin 16) (s : Fin 128) (p : Fin 128) :
    broadcastTo S8x16x128x128 y h (ix4 a bb s p) = y (ix4 (0 : Fin 1) bb s p) :=
  broadcastTo_apply y h (ix4 a bb s p) (ix4 (0 : Fin 1) bb s p) (fun c => match c with
    | ⟨0, _⟩ => rfl
    | ⟨1, _⟩ => rfl
    | ⟨2, _⟩ => rfl
    | ⟨3, _⟩ => rfl)

/-- A row of hidden units repeated over every (a, b, s). -/
theorem bcastR_apply (y : S1x1x1x128.Idx → α) (h : S1x1x1x128.Broadcasts S8x16x128x128) (a : Fin 8) (bb : Fin 16) (s : Fin 128) (p : Fin 128) :
    broadcastTo S8x16x128x128 y h (ix4 a bb s p) = y (ix4 (0 : Fin 1) (0 : Fin 1) (0 : Fin 1) p) :=
  broadcastTo_apply y h (ix4 a bb s p) (ix4 (0 : Fin 1) (0 : Fin 1) (0 : Fin 1) p) (fun c => match c with
    | ⟨0, _⟩ => rfl
    | ⟨1, _⟩ => rfl
    | ⟨2, _⟩ => rfl
    | ⟨3, _⟩ => rfl)

end Layout

/-! ## The lane sum -/

/-- The sum over the 128 hidden units of the tile, at (a, b, s). -/
theorem laneSum_apply (src : FVec Ideal S8x16x128x128 .f32) (h : S8x16x128x128.Reduces [3] S8x16x128) (hφ : FKind.Formats .f32)
    (hacc : (0x00000000#32 : BitVec 32) = FKind.add.neutral .f32 hφ) (a : Fin 8) (bb : Fin 16) (s : Fin 128) :
    multiReduction (F := Ideal) .add [3] S8x16x128 src 0x00000000#32 h hφ hacc (ix3 a bb s) = ∑ p : Fin 128, src (ix4 a bb s p) := by
  refine (Ideal.multiReduction_add_single src 0x00000000#32 h hφ hacc (ix3 a bb s)).trans ?_
  show ∑ p : Fin 128, src (h.lift (ix3 a bb s) p) = _
  refine Finset.sum_congr rfl fun p _ => congrArg src (funext fun c => Fin.ext ?_)
  match c with
  | ⟨0, _⟩ => rfl
  | ⟨1, _⟩ => rfl
  | ⟨2, _⟩ => rfl
  | ⟨3, _⟩ => rfl

/-! ## The two projections of the tile -/

/-- The target projection at (a, b) on unit p of the tile: the target vector against the upper half's column p. -/
theorem projT_apply (x0 : FVec Ideal S8x16x1024 .bf16) (x2 : FVec Ideal S2048x128 .bf16)
    (h1 : S8x16x1024.ShapeCasts S128x1024) (hs : S2048x128.Slices ![0, 0] S1024x128) (h2 : S128x128.ShapeCasts S8x16x128)
    (a : Fin 8) (bb : Fin 16) (p : Fin 128) :
    shapeCast S8x16x128 (matmul dot_S128x1024_S1024x128_S128x128_1_0_0_1_n_n none (shapeCast S128x1024 x0 h1)
        (extractStridedSlice S1024x128 ![0, 0] x2 hs) (constant (F := Ideal) S128x128 .f32 0x00000000#32)) h2 (ix3 a bb p)
      = ∑ k : Fin 1024, x0 (ix3 a bb k) * x2 (ix2 (Cert.Attn.colL k) p) := by
  refine (castPT_apply _ h2 a bb p).trans ?_
  refine (dotT_apply _ _ (rowT a bb) p).trans ?_
  refine Finset.sum_congr rfl fun k _ => ?_
  rw [castH_apply, sliceL_apply]

/-- The source projection at (b, s) on unit p of the tile: the source vector against the lower half's column p. -/
theorem projS_apply (x1 : FVec Ideal S16x128x1024 .bf16) (x2 : FVec Ideal S2048x128 .bf16)
    (h1 : S16x128x1024.ShapeCasts S2048x1024) (hs : S2048x128.Slices ![1024, 0] S1024x128) (h2 : S2048x128.ShapeCasts S16x128x128)
    (bb : Fin 16) (s : Fin 128) (p : Fin 128) :
    shapeCast S16x128x128 (matmul dot_S2048x1024_S1024x128_S2048x128_1_0_0_1_n_n none (shapeCast S2048x1024 x1 h1)
        (extractStridedSlice S1024x128 ![1024, 0] x2 hs) (constant (F := Ideal) S2048x128 .f32 0x00000000#32)) h2 (ix3 bb s p)
      = ∑ k : Fin 1024, x1 (ix3 bb s k) * x2 (ix2 (Cert.Attn.colR k) p) := by
  refine (castPS_apply _ h2 bb s p).trans ?_
  refine (dotS_apply _ _ (rowS bb s) p).trans ?_
  refine Finset.sum_congr rfl fun k _ => ?_
  rw [castS_apply, sliceR_apply]

/-! ## The payload at an index -/

/-- The hyperbolic tangent of a vector, at an index. -/
theorem tanh_apply {s : Shape} {φ : FTy} (x : FVec Ideal s φ) (i : s.Idx) : tanh x i = Ideal.tanh (x i) := rfl

/-- The body's result at (a, b, s): what the accumulator held there plus the tile's partial score — the sum over the
    tile's 128 hidden units of tanh(target projection + source projection + bias) times v. -/
theorem pay2_apply (x0 : Vec Ideal S8x16x1024 .bf16) (x1 : Vec Ideal S16x128x1024 .bf16) (x2 : Vec Ideal S2048x128 .bf16)
    (x3 x4 : Vec Ideal S1x128 .f32) (acc : Vec Ideal S8x16x128 .f32) (a : Fin 8) (bb : Fin 16) (s : Fin 128) :
    k0_pay2 (F := Ideal) x0 x1 x2 x3 x4 acc (ix3 a bb s) = acc (ix3 a bb s) + Cert.Attn.tileOfBlocks x0 x1 x2 x3 x4 a bb s := by
  unfold k0_pay2
  dsimp only
  refine (addf_apply _ _ _).trans ?_
  refine congrArg₂ (· + ·) (congrFun (shapeCast_self acc _) _) ?_
  refine (laneSum_apply _ _ _ _ a bb s).trans ?_
  unfold Cert.Attn.tileOfBlocks
  refine Finset.sum_congr rfl fun p _ => ?_
  refine (mulf_apply _ _ _).trans ?_
  refine congrArg₂ (· * ·) ?_ ?_
  · refine (tanh_apply _ _).trans (congrArg Ideal.tanh ?_)
    refine (addf_apply _ _ _).trans ?_
    refine congrArg₂ (· + ·) ?_ ?_
    · refine (addf_apply _ _ _).trans ?_
      refine congrArg₂ (· + ·) ?_ ?_
      · refine (bcastT_apply _ _ a bb s p).trans ?_
        refine (cast4T_apply _ _ a bb p).trans ?_
        refine (projT_apply _ _ _ _ _ a bb p).trans ?_
        rw [shapeCast_self x0, shapeCast_self x2]
      · refine (bcastS_apply _ _ a bb s p).trans ?_
        refine (cast4S_apply _ _ bb s p).trans ?_
        refine (projS_apply _ _ _ _ _ bb s p).trans ?_
        rw [shapeCast_self x1, shapeCast_self x2]
    · refine (bcastR_apply _ _ a bb s p).trans ?_
      refine (cast4R_apply _ _ p).trans ?_
      exact congrFun (shapeCast_self x3 _) _
  · refine (bcastR_apply _ _ a bb s p).trans ?_
    exact cast4R_apply _ _ p

end Cert.KernelBody

end
-- ==== Proof.KernelValue.lean ====
/-
  The kernel's value: the score array after the region, and the result after the host operations that follow it.

  The output block of a row of the grid is carried across the row's eight points: the first clears it and adds tile 0,
  each later point adds its tile, the last writes the block back.  By induction on the point, after point n the block
  holds the row's first (n % 8 + 1) tiles added left to right onto zero; at the row's last point that is the score.
  The four written blocks tile the [32,16,128] array, so after the region it holds the score everywhere, and the host
  operations that follow turn it into the softmax over the source positions, laid out [32,128,16,1].
-/
import proofs.«170050_j79894981640368_1_alg».proof.Proof.KernelPieces
import proofs.«170050_j79894981640368_1_alg».proof.Proof.KernelBlocks
import proofs.«170050_j79894981640368_1_alg».proof.Proof.KernelTail
import proofs.«170050_j79894981640368_1_alg».proof.Proof.KernelBody
import Idealize.ShloMosaic.Lib.Pipeline.Value
import Idealize.ShloMosaic.Lib.StableHlo.Run
import Idealize.ShloMosaic.Lib.Tactic

noncomputable section

open scoped BigOperators

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)
open Cert.KernelBlocks Cert.KernelPieces

variable (m : (ℓ : Loc nD τ sig) → Buf (Elt Ideal) ℓ) (ρ : Dev nD → PrngReg)

/-- The contributions of the hidden units to the score of (point t's target position a, b, s), indexed by ℕ. -/
abbrev contrib (c : Dev nD) (t : Fin cfg0.N) (a : Fin 8) (bb : Fin 16) (s : Fin 128) : ℕ → EReal :=
  Cert.Attn.termN (argH m c) (argS m c) (argW m c) (argB m c) (argV m c) (rowOf t a) bb s

/-- The first point of a row leaves zero plus tile 0. -/
theorem step_first (c : Dev nD) (t : Fin cfg0.N) (h0 : t.val % 8 = 0) (a : Fin 8) (bb : Fin 16) (s : Fin 128) :
    (outsAt0 m c t.val t.isLt : Vec Ideal S8x16x128 .f32) (ix3 a bb s) = Cert.Spec.accum0 (contrib m c t a bb s) 128 (t.val % 8) := by
  refine (congrFun (outsAt0_A m c t h0) (ix3 a bb s)).trans ?_
  refine (congrFun (out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (blkH m c t) (blkS m c t) (blkW m c t) (blkB m c t) (blkV m c t)) (ix3 a bb s)).trans ?_
  refine (Cert.KernelBody.pay2_apply (blkH m c t) (blkS m c t) (blkW m c t) (blkB m c t) (blkV m c t) (k0_pay1 (F := Ideal)) a bb s).trans ?_
  rw [tile_eq, Cert.Attn.tileSum_eq_block, h0, show (tileOf t).val = 0 from h0]
  show Ideal.ofBits .f32 0x00000000#32 + _ = (0 : EReal) + _
  rw [Ideal.ofBits_zero_f32]

/-- A later point of a row adds its tile to what the point before left. -/
theorem step_later (c : Dev nD) (t : Fin cfg0.N) (h0 : ¬t.val % 8 = 0) (a : Fin 8) (bb : Fin 16) (s : Fin 128)
    (ih : (outsAt0 m c (t.val - 1) (Nat.lt_of_le_of_lt (Nat.sub_le _ _) t.isLt) : Vec Ideal S8x16x128 .f32) (ix3 a bb s)
      = Cert.Spec.accum0 (contrib m c t a bb s) 128 (t.val % 8 - 1)) :
    (outsAt0 m c t.val t.isLt : Vec Ideal S8x16x128 .f32) (ix3 a bb s) = Cert.Spec.accum0 (contrib m c t a bb s) 128 (t.val % 8) := by
  refine (congrFun (outsAt0_B m c t h0) (ix3 a bb s)).trans ?_
  refine (congrFun (out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (blkH m c t) (blkS m c t) (blkW m c t) (blkB m c t) (blkV m c t) (outsAt0 m c (t.val - 1) (Nat.lt_of_le_of_lt (Nat.sub_le _ _) t.isLt))) (ix3 a bb s)).trans ?_
  refine (Cert.KernelBody.pay2_apply (blkH m c t) (blkS m c t) (blkW m c t) (blkB m c t) (blkV m c t) (outsAt0 m c (t.val - 1) (Nat.lt_of_le_of_lt (Nat.sub_le _ _) t.isLt)) a bb s).trans ?_
  rw [ih, tile_eq, Cert.Attn.tileSum_eq_block]
  obtain ⟨k, hk⟩ : ∃ k, t.val % 8 = k + 1 := ⟨t.val % 8 - 1, by omega⟩
  show Cert.Spec.accum0 _ 128 (t.val % 8 - 1) + Cert.Spec.block _ 128 (t.val % 8) = _
  rw [hk]
  rfl

/-- After point n the block holds the row's first n % 8 + 1 tiles added left to right onto zero. -/
theorem outsAt_eq (c : Dev nD) : ∀ (n : ℕ) (hn : n < cfg0.N) (a : Fin 8) (bb : Fin 16) (s : Fin 128),
    (outsAt0 m c n hn : Vec Ideal S8x16x128 .f32) (ix3 a bb s) = Cert.Spec.accum0 (contrib m c ⟨n, hn⟩ a bb s) 128 (n % 8)
  | 0, hn, a, bb, s => step_first m c ⟨0, hn⟩ rfl a bb s
  | n + 1, hn, a, bb, s => by
    by_cases h0 : (n + 1) % 8 = 0
    · exact step_first m c ⟨n + 1, hn⟩ h0 a bb s
    · refine step_later m c ⟨n + 1, hn⟩ h0 a bb s ?_
      have ih := outsAt_eq c n (Nat.lt_of_succ_lt hn) a bb s
      have hrow : rowOf (⟨n, Nat.lt_of_succ_lt hn⟩ : Fin cfg0.N) a = rowOf (⟨n + 1, hn⟩ : Fin cfg0.N) a :=
        Fin.ext (by show 8 * (n / 8) + a.val = 8 * ((n + 1) / 8) + a.val; omega)
      show (outsAt0 m c n _ : Vec Ideal S8x16x128 .f32) (ix3 a bb s) = Cert.Spec.accum0 (contrib m c ⟨n + 1, hn⟩ a bb s) 128 ((n + 1) % 8 - 1)
      rw [ih, show (n + 1) % 8 - 1 = n % 8 by omega]
      unfold contrib
      rw [hrow]

/-! ## The score array after the region -/

/-- The array the region's output ends holding: the score at (t, b, s). -/
def scoreArr (c : Dev nD) : Buf (Elt Ideal) ((c : Thread nD τ).loc main_v6) :=
  fun i => Cert.Attn.score (argH m c) (argS m c) (argW m c) (argB m c) (argV m c) (i 0) (i 1) (i 2)

theorem idx5 : ∀ t : Fin cfg0.N, win0_5.index t (0 : Fin 3) = t.val / 8 ∧ win0_5.index t (1 : Fin 3) = 0 ∧ win0_5.index t (2 : Fin 3) = 0 :=
  (by decide +kernel : ∀ t : Fin grid0.N, win0_5.index t (0 : Fin 3) = t.val / 8 ∧ win0_5.index t (1 : Fin 3) = 0 ∧ win0_5.index t (2 : Fin 3) = 0)

/-- At a row's last point the block holds the score: entry (a, b, s) of the block is the score at the entry's place in
    the array. -/
theorem block_eq_score (c : Dev nD) (t : Fin cfg0.N) (h7 : t.val % 8 = 7) (a : Fin 8) (bb : Fin 16) (s : Fin 128) :
    (outsAt0 m c t.val t.isLt : Vec Ideal S8x16x128 .f32) (ix3 a bb s)
      = scoreArr m c (((cfg0.win 5).blk t).view.emb (ix3 a bb s)) := by
  rw [outsAt_eq m c t.val t.isLt a bb s, h7]
  refine (Cert.Attn.tiles_eq_score (argH m c) (argS m c) (argW m c) (argB m c) (argV m c) (rowOf t a) bb s).trans ?_
  have hi := idx5 t
  have e0 : rowOf t a = (((cfg0.win 5).blk t).view.emb (ix3 a bb s)) 0 :=
    Fin.ext (by show 8 * (t.val / 8) + a.val = win0_5.index t 0 * 8 + 1 * a.val; rw [hi.1]; omega)
  have e1 : bb = (((cfg0.win 5).blk t).view.emb (ix3 a bb s)) 1 :=
    Fin.ext (by show bb.val = win0_5.index t 1 * 16 + 1 * bb.val; rw [hi.2.1]; omega)
  have e2 : s = (((cfg0.win 5).blk t).view.emb (ix3 a bb s)) 2 :=
    Fin.ext (by show s.val = win0_5.index t 2 * 128 + 1 * s.val; rw [hi.2.2]; omega)
  show Cert.Attn.score _ _ _ _ _ (rowOf t a) bb s
    = Cert.Attn.score _ _ _ _ _ ((((cfg0.win 5).blk t).view.emb (ix3 a bb s)) 0) ((((cfg0.win 5).blk t).view.emb (ix3 a bb s)) 1) ((((cfg0.win 5).blk t).view.emb (ix3 a bb s)) 2)
  rw [← e0, ← e1, ← e2]

/-- What a row's last point writes back is its block of the score array. -/
theorem flushed_eq (c : Dev nD) (t : Fin cfg0.N) (hf : (cfg0.win 5).flush t = true) :
    (dats m 0 c).flushed 5 t = ((cfg0.win 5).blk t).view.read (Elt Ideal) (scoreArr m c) := by
  have h7 : t.val % 8 = 7 := (flush0_5 t).mp hf
  show (cfg0.win 5).cut (grid0.coords t) ((dats m 0 c).after 5 t) = _
  rw [after0_5]
  funext j
  rw [View.read_apply]
  obtain ⟨a, bb, s, rfl⟩ : ∃ (a : Fin 8) (bb : Fin 16) (s : Fin 128), j = ix3 a bb s := ⟨j 0, j 1, j 2, eq_ix3 j⟩
  exact block_eq_score m c t h7 a bb s

/-- Every index of the array is in the block some row's last point writes back. -/
theorem covered (i : S32x16x128.Idx) : ∃ t : Fin cfg0.N, (cfg0.win 5).flush t = true ∧ i ∈ ((cfg0.win 5).blk t).view.set := by
  have hN : cfg0.N = 32 := N_0
  have hi0 : (i 0).val < 32 := (i 0).isLt
  have hi1 : (i 1).val < 16 := (i 1).isLt
  have hi2 : (i 2).val < 128 := (i 2).isLt
  let t : Fin cfg0.N := ⟨8 * ((i 0).val / 8) + 7, by omega⟩
  have ht : t.val = 8 * ((i 0).val / 8) + 7 := rfl
  refine ⟨t, (flush0_5 t).mpr (by rw [ht]; omega), ?_⟩
  show i ∈ ((View.whole main_v6).slice (win0_5.rect t)).set
  rw [View.set_slice_whole, Rect.mem_set_unit]
  have hi := idx5 t
  intro a
  match a with
  | ⟨0, _⟩ => show win0_5.index t 0 * 8 ≤ (i 0).val ∧ (i 0).val < win0_5.index t 0 * 8 + 8; rw [hi.1, ht]; omega
  | ⟨1, _⟩ => show win0_5.index t 1 * 16 ≤ (i 1).val ∧ (i 1).val < win0_5.index t 1 * 16 + 16; rw [hi.2.1]; omega
  | ⟨2, _⟩ => show win0_5.index t 2 * 128 ≤ (i 2).val ∧ (i 2).val < win0_5.index t 2 * 128 + 128; rw [hi.2.2]; omega

/-- After the region the output array holds the score. -/
theorem final (c : Dev nD) : (dats m 0 c).arrAt 5 cfg0.N = scoreArr m c :=
  (dats m 0 c).arrAt_eq_of_cover 5 (scoreArr m c) (flushed_eq m c) covered

/-! ## The result after the host operations that follow -/

/-- The result: the softmax over the source positions of the scores, the array G of the mathematics. -/
theorem result_eq (c : Dev nD) :
    Pipeline.afterTail₀ cfgs (dats m) 0 (V0 m) [hostOps1] c main_v19
      = Cert.Attn.G (argH m c) (argS m c) (argW m c) (argB m c) (argV m c) := by
  unfold Pipeline.afterTail₀
  show StableHlo.after hostOps1 _ (Proc.devRef .tc main_v19) = _
  after_results
  have hX : (Pipeline.withArrays (cfgs 0).spec c (V0 m c) (fun w => (dats m 0 c).arrAt w (cfgs 0).N) (Proc.devRef .tc main_v6) : S32x16x128.Idx → EReal)
      = scoreArr m c :=
    (Pipeline.withArrays_arr spec0 launch0.win.arr_inj c (V0 m c) (fun w => (dats m 0 c).arrAt w (cfgs 0).N) 5).trans (final m c)
  show Cert.KernelTail.tail (Pipeline.withArrays (cfgs 0).spec c (V0 m c) (fun w => (dats m 0 c).arrAt w (cfgs 0).N) (Proc.devRef .tc main_v6)) = _
  rw [hX]
  funext i
  obtain ⟨t, s, bb, z, rfl⟩ : ∃ (t : Fin 32) (s : Fin 128) (bb : Fin 16) (z : Fin 1), i = ix4 t s bb z := ⟨i 0, i 1, i 2, i 3, eq_ix4 i⟩
  rw [Cert.KernelTail.tail_apply]
  rfl

/-! ## The run, read -/

/-- Every weakly fair execution of the idealized kernel program ends with the result array at G of the arguments and
    the arguments as launched. -/
theorem run : θ_run defs (onTc (τ := τ) (main (F := Ideal))) ⟨m, fun _ => 0, ρ⟩ fun r => ∀ c : Dev nD,
      r.2.mem ((c : Thread nD τ).loc main_v19) = Cert.Attn.G (argH m c) (argS m c) (argW m c) (argB m c) (argV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
      ⟨((h c).2 main_v19 (Pipeline.mem_restRefs_of main_v19 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).1 4).trans (((dats m 0 c).arrAt_in 4 rfl _).trans ((A_eq m c 4).trans (V_main_arg4 m c)))⟩)
    (run_main m ρ)

end Cert.KernelValue

end
-- ==== Proof.RefSide.lean ====
/-
  The reference program computes the softmax of the additive attention score.

  Read one operation at a time, the reference's value at (t, s, b, 0) is: the two projections of the target and the
  source vector on a hidden unit (two contractions over the 1024 features, against the left and the right half of a
  row of W), their sum plus the bias, its hyperbolic tangent, the contraction of that with v over the 1024 hidden
  units (the score of (t, b, s)), and then the softmax over the source positions: the row's maximum taken as a fold
  of max from −∞ over the 128 source positions and once more against −∞, the exponential of the score minus that
  maximum, the sum of those exponentials from 0, and the quotient. Each stage is identified with the corresponding
  definition of the mathematics at an index given by its coordinates; the last axis of the result has extent one.
-/
import proofs.«170050_j79894981640368_1_alg».proof.Proof.Gen.ReferenceIdeal.Read
import proofs.«170050_j79894981640368_1_alg».proof.Proof.Spec
import Idealize.ShloMosaic.PureOps.Reduce
import Idealize.ShloMosaic.PureOps.Ideal.Laws
import Idealize.ShloMosaic.Lib.ValueIdx
import Idealize.ShloMosaic.Lib.Pipeline.Value

noncomputable section

open scoped BigOperators

namespace Cert.RefSide

open Cert.ReferenceIdeal Cert.ReferenceIdeal.Gen Cert.ReferenceIdeal.Read Idealize.ShloMosaic Idealize.ShloMosaic.ValueIdx

variable (x0 : (⟨S32x16x1024, .f32⟩ : BufTy).Contents (Elt Ideal)) (x1 : (⟨S128x16x1024, .f32⟩ : BufTy).Contents (Elt Ideal))
  (x2 : (⟨S1024x2048, .f32⟩ : BufTy).Contents (Elt Ideal)) (x3 : (⟨S1024, .f32⟩ : BufTy).Contents (Elt Ideal))
  (x4 : (⟨S1x1024, .f32⟩ : BufTy).Contents (Elt Ideal))

/-- The first contraction at (t, b, o): the target vector's projection on hidden unit o. -/
theorem v2_at (t : Fin 32) (b : Fin 16) (o : Fin 1024) :
    val_main_v2 (F := Ideal) x0 x2 (ix3 t b o) = Cert.Attn.projT x0 x2 t b o := by
  rw [val_main_v2_apply]
  unfold Cert.Attn.projT
  refine Finset.sum_congr rfl fun k _ => ?_
  rw [val_main_v0_apply]
  have e1 : lidx_main_v2 (ix3 t b o) k = ix3 t b k :=
    funext fun a => by match a with | ⟨0, _⟩ => rfl | ⟨1, _⟩ => rfl | ⟨2, _⟩ => rfl
  have e2 : idx_main_v0 (ridx_main_v2 (ix3 t b o) k) = ix2 o (Cert.Attn.colL k) :=
    funext fun a => by match a with | ⟨0, _⟩ => rfl | ⟨1, _⟩ => rfl
  rw [e1, e2]

/-- The second contraction at (s, b, o): the source vector's projection on hidden unit o, against the right half of W. -/
theorem v3_at (s : Fin 128) (b : Fin 16) (o : Fin 1024) :
    val_main_v3 (F := Ideal) x1 x2 (ix3 s b o) = Cert.Attn.projS x1 x2 s b o := by
  rw [val_main_v3_apply]
  unfold Cert.Attn.projS
  refine Finset.sum_congr rfl fun k _ => ?_
  rw [val_main_v1_apply]
  have e1 : lidx_main_v3 (ix3 s b o) k = ix3 s b k :=
    funext fun a => by match a with | ⟨0, _⟩ => rfl | ⟨1, _⟩ => rfl | ⟨2, _⟩ => rfl
  have e2 : idx_main_v1 (ridx_main_v3 (ix3 s b o) k) = ix2 o (Cert.Attn.colR k) :=
    funext fun a => by match a with | ⟨0, _⟩ => rfl | ⟨1, _⟩ => rfl
  rw [e1, e2]

/-- The hyperbolic tangent stage at (t, s, b, o): the tangent of the two projections' sum plus the bias. -/
theorem v12_at (t : Fin 32) (s : Fin 128) (b : Fin 16) (o : Fin 1024) :
    val_main_v12 (F := Ideal) x0 x1 x2 x3 (ix4 t s b o)
      = Ideal.tanh (Cert.Attn.projT x0 x2 t b o + Cert.Attn.projS x1 x2 s b o + x3 (ix1 o)) := by
  rw [val_main_v12_apply, val_main_v11_apply, val_main_v8_apply, val_main_v6_apply, val_main_v4_apply,
    val_main_v7_apply, val_main_v5_apply, val_main_v10_apply, val_main_v9_apply]
  have e1 : idx_main_v4 (idx_main_v6 (ix4 t s b o)) = ix3 t b o :=
    funext fun a => by match a with | ⟨0, _⟩ => rfl | ⟨1, _⟩ => rfl | ⟨2, _⟩ => rfl
  have e2 : idx_main_v5 (idx_main_v7 (ix4 t s b o)) = ix3 s b o :=
    funext fun a => by match a with | ⟨0, _⟩ => rfl | ⟨1, _⟩ => rfl | ⟨2, _⟩ => rfl
  have e3 : idx_main_v9 (idx_main_v10 (ix4 t s b o)) = ix1 o :=
    funext fun a => by match a with | ⟨0, _⟩ => rfl
  rw [e1, e2, e3, v2_at, v3_at]
  rfl

/-- The contraction with v at (t, s, b, z): the score of (t, b, s), whatever the coordinate z on the unit axis. -/
theorem score_eq (t : Fin 32) (s : Fin 128) (b : Fin 16) (z : Fin 1) :
    val_main_v13 (F := Ideal) x0 x1 x2 x3 x4 (ix4 t s b z) = Cert.Attn.score x0 x1 x2 x3 x4 t b s := by
  obtain rfl : z = 0 := Subsingleton.elim _ _
  rw [val_main_v13_apply]
  unfold Cert.Attn.score Cert.Attn.term
  refine Finset.sum_congr rfl fun o _ => ?_
  have e1 : lidx_main_v13 (ix4 t s b (0 : Fin 1)) o = ix4 t s b o :=
    funext fun a => by match a with | ⟨0, _⟩ => rfl | ⟨1, _⟩ => rfl | ⟨2, _⟩ => rfl | ⟨3, _⟩ => rfl
  have e2 : ridx_main_v13 (ix4 t s b (0 : Fin 1)) o = ix2 0 o :=
    funext fun a => by match a with | ⟨0, _⟩ => rfl | ⟨1, _⟩ => rfl
  rw [e1, e2, v12_at]

/-- The shape fact of the reduction over the source positions, in the form that names the inserted index. -/
theorem hred : Shape.Reduces S32x128x16x1 [1] S32x16x1 := by decide

/-- The index over (t, b, z) with source position s inserted on axis 1 is (t, s, b, z). -/
theorem lift_at (t : Fin 32) (b : Fin 16) (z : Fin 1) (s : Fin 128) :
    hred.lift (ix3 t b z) s = ix4 t s b z :=
  funext fun a => Fin.ext (by match a with | ⟨0, _⟩ => rfl | ⟨1, _⟩ => rfl | ⟨2, _⟩ => rfl | ⟨3, _⟩ => rfl)

/-- The max-reduction at (t, b, z): the fold of max from −∞ over the 128 scores of (t, b). -/
theorem v14_at (t : Fin 32) (b : Fin 16) (z : Fin 1) :
    val_main_v14 (F := Ideal) x0 x1 x2 x3 x4 (ix3 t b z)
      = (Finset.univ : Finset (Fin 128)).fold (FloatOps.maximumf (F := Ideal) (φ := .f32)) (Ideal.ofBits .f32 0xFF800000#32)
          (fun s' => Cert.Attn.score x0 x1 x2 x3 x4 t b s') := by
  unfold val_main_v14
  rw [Host.reduce_eq_fold_single (FloatOps.maximumf (F := Ideal) (φ := .f32)) _ _ _ hred]
  have e : (val_main_v13 (F := Ideal) x0 x1 x2 x3 x4) ∘ hred.lift (ix3 t b z)
      = fun s' => Cert.Attn.score x0 x1 x2 x3 x4 t b s' :=
    funext fun (s' : Fin 128) =>
      (congrArg (val_main_v13 (F := Ideal) x0 x1 x2 x3 x4) (lift_at t b z s')).trans (score_eq x0 x1 x2 x3 x4 t s' b z)
  rw [e]
  rfl

/-- The maximum against −∞ at (t, b, z): the row's maximum of the scores of (t, b). -/
theorem v16_at (t : Fin 32) (b : Fin 16) (z : Fin 1) :
    val_main_v16 (F := Ideal) x0 x1 x2 x3 x4 (ix3 t b z)
      = Cert.Attn.rowMax (fun s' => Cert.Attn.score x0 x1 x2 x3 x4 t b s') := by
  rw [val_main_v16_apply, val_main_v15_apply, val_main_cst_0_apply, v14_at]
  rfl

/-- The exponential stage at (t, s, b, z): the exponential of the score shifted by the row's maximum. -/
theorem v20_at (t : Fin 32) (s : Fin 128) (b : Fin 16) (z : Fin 1) :
    val_main_v20 (F := Ideal) x0 x1 x2 x3 x4 (ix4 t s b z)
      = Cert.Attn.expShift (fun s' => Cert.Attn.score x0 x1 x2 x3 x4 t b s') s := by
  rw [val_main_v20_apply, val_main_v19_apply, val_main_v18_apply, val_main_v17_apply, score_eq]
  have e : idx_main_v17 (idx_main_v18 (ix4 t s b z)) = ix3 t b 0 :=
    funext fun a => by match a with | ⟨0, _⟩ => rfl | ⟨1, _⟩ => rfl | ⟨2, _⟩ => rfl
  rw [e, v16_at]
  rfl

/-- The sum-reduction at (t, b, z): the sum from 0 of the shifted exponentials over the source positions. -/
theorem v21_at (t : Fin 32) (b : Fin 16) (z : Fin 1) :
    val_main_v21 (F := Ideal) x0 x1 x2 x3 x4 (ix3 t b z)
      = Ideal.ofBits .f32 0x00000000#32
        + ∑ s' : Fin 128, Cert.Attn.expShift (fun s'' => Cert.Attn.score x0 x1 x2 x3 x4 t b s'') s' := by
  rw [val_main_v21_apply, val_main_cst_1_apply]
  refine congrArg (_ + ·) (Finset.sum_congr rfl fun k _ => ?_)
  have e : idx_main_v21 (ix3 t b z) k = ix4 t k b z :=
    funext fun a => by match a with | ⟨0, _⟩ => rfl | ⟨1, _⟩ => rfl | ⟨2, _⟩ => rfl | ⟨3, _⟩ => rfl
  rw [e, v20_at]

/-- The reference's result is the softmax, over the source positions, of the scores: the array G of the mathematics. -/
theorem ref_eq_G : val_main_v24 (F := Ideal) x0 x1 x2 x3 x4 = Cert.Attn.G x0 x1 x2 x3 x4 := by
  funext i
  obtain ⟨t, s, b, z, rfl⟩ : ∃ t s b z, i = ix4 t s b z := ⟨i 0, i 1, i 2, i 3, eq_ix4 i⟩
  rw [val_main_v24_apply, val_main_v23_apply, val_main_v22_apply, v20_at]
  have e : idx_main_v22 (idx_main_v23 (ix4 t s b z)) = ix3 t b 0 :=
    funext fun a => by match a with | ⟨0, _⟩ => rfl | ⟨1, _⟩ => rfl | ⟨2, _⟩ => rfl
  rw [e, v21_at]
  rfl

end Cert.RefSide

end
-- ==== Proof.lean ====
/-
  The kernel scores a target position t against a source position s, for batch entry b, by
      score t b s = ∑ₒ tanh( (∑ₖ h[t,b,k]·W[o,k]) + (∑ₖ src[s,b,k]·W[o,1024+k]) + bias[o] ) · v[0,o]
  and returns, at (t, s, b, 0), the softmax of s' ↦ score t b s' at s.  The reference computes the same two projections
  as contractions against the two halves of W, the same tangent and contraction with v, and the same softmax over the
  source axis, on arrays laid out (t, s, b, ·).

  The kernel differs in arrangement only.  It cuts the 1024 hidden units o into 8 tiles of 128 and, for 8 target
  positions at a time, adds the tiles' partial scores left to right into a block that starts at zero; it keeps the
  scores as (t, b, s), takes the softmax along the last axis and swaps the axes at the end.  Over the extended reals
  addition is commutative and associative, so the tiles added in order are the whole sum over o, whatever the entries
  are: no entry needs to be finite, and the precondition is never opened.  Both programs therefore end at one array,
  `Cert.Attn.G` of the arguments (Proof/Spec.lean): the kernel by Proof/KernelValue.lean (the block carried across a row
  of the grid, by induction on the point; the written blocks tile the score array; the host operations after the region
  read at an index), the reference by Proof/RefSide.lean (its operations read one at a time).

  The three frame claims are the generated frames of the two kernel programs and the reference's run with its result
  dropped; the idealization rewrote nothing, so `preserves` is trivial.
-/
import proofs.«170050_j79894981640368_1_alg».proof.Defs
import proofs.«170050_j79894981640368_1_alg».proof.Proof.Gen.Kernel
import proofs.«170050_j79894981640368_1_alg».proof.Proof.Gen.Kernel.Skeleton
import proofs.«170050_j79894981640368_1_alg».proof.Proof.Gen.Kernel.Launch
import proofs.«170050_j79894981640368_1_alg».proof.Proof.Gen.Kernel.Points
import proofs.«170050_j79894981640368_1_alg».proof.Proof.Gen.Kernel.Frame
import proofs.«170050_j79894981640368_1_alg».proof.Proof.Gen.KernelIdeal
import proofs.«170050_j79894981640368_1_alg».proof.Proof.Gen.KernelIdeal.Skeleton
import proofs.«170050_j79894981640368_1_alg».proof.Proof.Gen.KernelIdeal.Launch
import proofs.«170050_j79894981640368_1_alg».proof.Proof.Gen.KernelIdeal.Points
import proofs.«170050_j79894981640368_1_alg».proof.Proof.Gen.KernelIdeal.Frame
import proofs.«170050_j79894981640368_1_alg».proof.Proof.Gen.ReferenceIdeal
import proofs.«170050_j79894981640368_1_alg».proof.Proof.Gen.Pre_finite_inputs
import proofs.«170050_j79894981640368_1_alg».proof.Proof.Gen.ReferenceIdeal.Run
import proofs.«170050_j79894981640368_1_alg».proof.Proof.Gen.ReferenceIdeal.Read
import proofs.«170050_j79894981640368_1_alg».proof.Proof.KernelValue
import proofs.«170050_j79894981640368_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs and keeps its arguments: its generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the softmax of the scores of arguments that agree. -/
theorem algebraic : Cert.algebraic_KernelIdeal_ReferenceIdeal := by
  intro m ρ m' ρ' _ hagree
  refine ⟨fun c => Cert.Attn.G (Cert.KernelBlocks.argH m c) (Cert.KernelBlocks.argS m c) (Cert.KernelBlocks.argW m c)
      (Cert.KernelBlocks.argB m c) (Cert.KernelBlocks.argV m c), Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.RefSide.ref_eq_G, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
